-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384 : Shape := ⟨1, ![16384]⟩
abbrev S16384x3 : Shape := ⟨2, ![16384, 3]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x3 : S_.BroadcastsInDim S16384x3 (![] : Fin 0 → Fin S16384x3.rank)
  reducesTo_S16384x3_S_d0_1 : S16384x3.ReducesTo [0, 1] S_

variable [Facts]

def fn {F : FTy → Type} [FloatOps F] (main_arg0 : FVec F S16384x4096 .f32) (main_arg1 : IVec S16384 32) (main_arg2 : IVec S16384x3 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_c_0 : IVec S_ 32 := constantI S_ 32 0#32
  let main_v4 : IVec S16384x3 32 := broadcastInDim S16384x3 ![] bcast_S_S16384x3 main_c_0
  let main_v5 : IVec S16384x3 1 := cmpi .sge main_arg2 main_v4
  let main_c_1 : IVec S_ 32 := constantI S_ 32 4096#32
  let main_v6 : IVec S16384x3 32 := broadcastInDim S16384x3 ![] bcast_S_S16384x3 main_c_1
  let main_v7 : IVec S16384x3 1 := cmpi .slt main_arg2 main_v6
  let main_v8 : IVec S16384x3 1 := andi main_v5 main_v7
  let main_c_2 : IVec S_ 1 := constantI S_ 1 1#1
  let main_v9 : IVec S_ 1 := (fun x v => Host.reduce IntOp.andi x v reducesTo_S16384x3_S_d0_1 h_S_) main_v8 main_c_2
  let main_v10 : IVec S_ 1 := andi main_v3 main_v9
  main_v10
-- ==== Kernel.lean ====
abbrev S16384x4096 : Shape := ⟨2, ![16384, 4096]⟩
abbrev S16384 : Shape := ⟨1, ![16384]⟩
abbrev S16384x3 : Shape := ⟨2, ![16384, 3]⟩
abbrev S256x4096 : Shape := ⟨2, ![256, 4096]⟩
abbrev S256x3 : Shape := ⟨2, ![256, 3]⟩
abbrev S256 : Shape := ⟨1, ![256]⟩
abbrev S256x1 : Shape := ⟨2, ![256, 1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S16384x3, .i32⟩
  | .hbm, ⟨3, _⟩ => ⟨S16384, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x3, .i32⟩
  | .local _ .vmem, ⟨3, _⟩ => ⟨S256x3, .i32⟩
  | .local _ .vmem, ⟨4, _⟩ => ⟨S256, .f32⟩
  | .local _ .vmem, ⟨5, _⟩ => ⟨S256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  shapeCasts_S256x1_S256 : S256x1.ShapeCasts S256
  inb_S256x3_S256x3_0_0 : ∀ a, (![0, 0] : Fin 2 → Nat) a + S256x3.size a ≤ S256x3.size a
  h_S256x3 : 0 < S256x3.numel
  slices_S256x3_o0_0_S256x1 : S256x3.Slices ![0, 0] S256x1
  slices_S256x3_o0_1_S256x1 : S256x3.Slices ![0, 1] S256x1
  slices_S256x3_o0_2_S256x1 : S256x3.Slices ![0, 2] S256x1
  iota_S256x4096_d1_w32 : S256x4096.Iotas .tc 32 [1]
  shapeCasts_S256x1_S256x1 : S256x1.ShapeCasts S256x1
  inb_S256_S256_0 : ∀ a, (![0] : Fin 1 → Nat) a + S256.size a ≤ S256.size a
  h_S256 : 0 < S256.numel
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3.size a ≤ S16384x3.size a
  hwx0_1 : ∀ i : grid0.Coords, EltTy.bits .i32 = 32 ∨ (Rect.block (s := S16384x3) S256x3.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S16384.size a
  hwx0_2 : ∀ i : grid0.Coords, EltTy.bits .f32 = 32 ∨ (Rect.block (s := S16384) S256.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384 : Shape := ⟨1, ![16384]⟩
abbrev S16384x3 : Shape := ⟨2, ![16384, 3]⟩
abbrev S_ : Shape := ⟨0, ![]⟩
abbrev S16384x1 : Shape := ⟨2, ![16384, 1]⟩
abbrev S16384x3x1 : Shape := ⟨3, ![16384, 3, 1]⟩
abbrev S1 : Shape := ⟨1, ![1]⟩
abbrev S1x1x1 : Shape := ⟨3, ![1, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S16384x3, .i32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S16384x1, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S_, .i32⟩
  | .hbm, ⟨19, _⟩ => ⟨S16384x3, .i32⟩
  | .hbm, ⟨20, _⟩ => ⟨S16384x3, .i1⟩
  | .hbm, ⟨21, _⟩ => ⟨S_, .i32⟩
  | .hbm, ⟨22, _⟩ => ⟨S16384x3, .i32⟩
  | .hbm, ⟨23, _⟩ => ⟨S16384x3, .i32⟩
  | .hbm, ⟨24, _⟩ => ⟨S16384x3, .i32⟩
  | .hbm, ⟨25, _⟩ => ⟨S16384x3x1, .i32⟩
  | .hbm, ⟨26, _⟩ => ⟨S1, .i32⟩
  | .hbm, ⟨27, _⟩ => ⟨S_, .i32⟩
  | .hbm, ⟨28, _⟩ => ⟨S16384x3x1, .i32⟩
  | .hbm, ⟨29, _⟩ => ⟨S16384x3x1, .i1⟩
  | .hbm, ⟨30, _⟩ => ⟨S1x1x1, .i32⟩
  | .hbm, ⟨31, _⟩ => ⟨S16384x3x1, .i32⟩
  | .hbm, ⟨32, _⟩ => ⟨S16384x3x1, .i1⟩
  | .hbm, ⟨33, _⟩ => ⟨S16384x3x1, .i1⟩
  | .hbm, ⟨34, _⟩ => ⟨S_, .i1⟩
  | .hbm, ⟨35, _⟩ => ⟨S16384x3, .i1⟩
  | .hbm, ⟨36, _⟩ => ⟨S16384x3, .f32⟩
  | .hbm, ⟨37, _⟩ => ⟨S_, .f32⟩
  | .hbm, ⟨38, _⟩ => ⟨S16384x3, .f32⟩
  | .hbm, ⟨39, _⟩ => ⟨S16384x3, .f32⟩
  | .hbm, ⟨40, _⟩ => ⟨S16384x3, .f32⟩
  | .hbm, ⟨41, _⟩ => ⟨S16384x1, .f32⟩
  | .hbm, ⟨42, _⟩ => ⟨S16384, .f32⟩
  | .hbm, ⟨43, _⟩ => ⟨S16384x1, .f32⟩
  | .hbm, ⟨44, _⟩ => ⟨S16384, .f32⟩
  | .hbm, ⟨45, _⟩ => ⟨S16384x1, .f32⟩
  | .hbm, ⟨46, _⟩ => ⟨S16384, .f32⟩
  | .hbm, ⟨47, _⟩ => ⟨S16384x1, .i32⟩
  | .hbm, ⟨48, _⟩ => ⟨S16384, .i32⟩
  | .hbm, ⟨49, _⟩ => ⟨S16384x1, .i32⟩
  | .hbm, ⟨50, _⟩ => ⟨S16384, .i32⟩
  | .hbm, ⟨51, _⟩ => ⟨S16384x1, .i32⟩
  | .hbm, ⟨52, _⟩ => ⟨S16384, .i32⟩
  | .hbm, ⟨53, _⟩ => ⟨S16384, .i1⟩
  | .hbm, ⟨54, _⟩ => ⟨S16384, .f32⟩
  | .hbm, ⟨55, _⟩ => ⟨S_, .f32⟩
  | .hbm, ⟨56, _⟩ => ⟨S16384, .f32⟩
  | .hbm, ⟨57, _⟩ => ⟨S16384, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S_, .f32⟩
  | .hbm, ⟨62, _⟩ => ⟨S16384, .f32⟩
  | .hbm, ⟨63, _⟩ => ⟨S16384, .f32⟩
  | .hbm, ⟨64, _⟩ => ⟨S16384, .f32⟩
  | .hbm, ⟨65, _⟩ => ⟨S16384, .i1⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S_, .f32⟩
  | .hbm, ⟨71, _⟩ => ⟨S16384, .f32⟩
  | .hbm, ⟨72, _⟩ => ⟨S16384, .f32⟩
  | .hbm, ⟨73, _⟩ => ⟨S_, .f32⟩
  | .hbm, ⟨74, _⟩ => ⟨S16384, .f32⟩
  | .hbm, ⟨75, _⟩ => ⟨S16384, .f32⟩
  | .hbm, ⟨76, _⟩ => ⟨S16384, .f32⟩
  | .hbm, ⟨77, _⟩ => ⟨S16384, .i1⟩
  | .hbm, ⟨78, _⟩ => ⟨S16384, .f32⟩
  | .hbm, ⟨79, _⟩ => ⟨S_, .f32⟩
  | .hbm, ⟨80, _⟩ => ⟨S16384, .f32⟩
  | .hbm, ⟨81, _⟩ => ⟨S16384, .f32⟩
  | .hbm, ⟨82, _⟩ => ⟨S_, .f32⟩
  | .hbm, ⟨83, _⟩ => ⟨S16384, .f32⟩
  | .hbm, ⟨84, _⟩ => ⟨S16384, .f32⟩
  | .hbm, ⟨85, _⟩ => ⟨S_, .f32⟩
  | .hbm, ⟨86, _⟩ => ⟨S16384, .f32⟩
  | .hbm, ⟨87, _⟩ => ⟨S16384, .f32⟩
  | .hbm, ⟨88, _⟩ => ⟨S16384, .f32⟩
  | .hbm, ⟨89, _⟩ => ⟨S_, .f32⟩
  | .hbm, ⟨90, _⟩ => ⟨S_, .f32⟩
  | .hbm, ⟨91, _⟩ => ⟨S16384, .f32⟩
  | .hbm, ⟨92, _⟩ => ⟨S16384, .f32⟩
  | .hbm, ⟨93, _⟩ => ⟨S16384, .f32⟩
  | .hbm, ⟨94, _⟩ => ⟨S16384, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst : Ref sig .tc := ⟨.hbm, 55, rfl⟩
abbrev main_v17 : Ref sig .tc := ⟨.hbm, 56, rfl⟩
abbrev main_v18 : Ref sig .tc := ⟨.hbm, 57, rfl⟩
abbrev main_cst_0 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_2 : Ref sig .tc := ⟨.hbm, 67, rfl⟩
abbrev main_v26 : Ref sig .tc := ⟨.hbm, 68, rfl⟩
abbrev main_v27 : Ref sig .tc := ⟨.hbm, 69, rfl⟩
abbrev main_cst_3 : Ref sig .tc := ⟨.hbm, 70, rfl⟩
abbrev main_v28 : Ref sig .tc := ⟨.hbm, 71, rfl⟩
abbrev main_v29 : Ref sig .tc := ⟨.hbm, 72, rfl⟩
abbrev main_cst_4 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_5 : Ref sig .tc := ⟨.hbm, 79, rfl⟩
abbrev main_v35 : Ref sig .tc := ⟨.hbm, 80, rfl⟩
abbrev main_v36 : Ref sig .tc := ⟨.hbm, 81, rfl⟩
abbrev main_cst_6 : Ref sig .tc := ⟨.hbm, 82, rfl⟩
abbrev main_v37 : Ref sig .tc := ⟨.hbm, 83, rfl⟩
abbrev main_v38 : Ref sig .tc := ⟨.hbm, 84, rfl⟩
abbrev main_cst_7 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_8 : Ref sig .tc := ⟨.hbm, 89, rfl⟩
abbrev main_call2_v0 : Ref sig .tc := ⟨.hbm, 90, rfl⟩
abbrev main_call2_v1 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_9 : Ref sig .tc := ⟨.hbm, 95, rfl⟩
abbrev main_v45 : Ref sig .tc := ⟨.hbm, 96, rfl⟩
abbrev main_cst_10 : Ref sig .tc := ⟨.hbm, 97, rfl⟩
abbrev main_v46 : Ref sig .tc := ⟨.hbm, 98, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S_S16384x3 : S_.BroadcastsInDim S16384x3 (![] : Fin 0 → Fin S16384x3.rank)
  shapeCasts_S16384x3_S16384x3x1 : S16384x3.ShapeCasts S16384x3x1
  bcast_S_S16384x3x1 : S_.BroadcastsInDim S16384x3x1 (![] : Fin 0 → Fin S16384x3x1.rank)
  bcast_S1_S1x1x1_2 : S1.BroadcastsInDim S1x1x1 (![2] : Fin 1 → Fin S1x1x1.rank)
  bcast_S1x1x1_S16384x3x1_0_1_2 : S1x1x1.BroadcastsInDim S16384x3x1 (![0, 1, 2] : Fin 3 → Fin S16384x3x1.rank)
  reducesTo_S16384x3x1_S16384x3_d2 : S16384x3x1.ReducesTo [2] S16384x3
  slices_S16384x3_S16384x1_0_0 : S16384x3.Slices ![0, 0] S16384x1
  shapeCasts_S16384x1_S16384 : S16384x1.ShapeCasts S16384
  slices_S16384x3_S16384x1_0_1 : S16384x3.Slices ![0, 1] S16384x1
  slices_S16384x3_S16384x1_0_2 : S16384x3.Slices ![0, 2] S16384x1
  reducesTo_S16384_S_d0 : S16384.ReducesTo [0] S_
  gather_S16384x4096_S16384x3x1_S16384x3_n_1_0_0_1_2_11_wf : GatherDims.WF S16384x4096 S16384x3x1 S16384x3 [] [1] [0] [1] [0] 2 ![1, 1]

variable [Facts₀]

def gather_S16384x4096_S16384x3x1_S16384x3_n_1_0_0_1_2_11 : GatherDims S16384x4096 S16384x3x1 S16384x3 where
  offsetDims := []
  collapsedSliceDims := [1]
  operandBatchingDims := [0]
  startIndicesBatchingDims := [0]
  startIndexMap := [1]
  indexVectorDim := 2
  sliceSizes := ![1, 1]
  wf := gather_S16384x4096_S16384x3x1_S16384x3_n_1_0_0_1_2_11_wf

class Facts : Prop extends Facts₀ where

variable [Facts]
-- ==== Proof.Spec.lean ====
/-
  The row specification both programs are compared with.

  One row of the loss: for a row `x` of 4096 logits and three label words `p0 p1 p2`, with
  `s c = x c - max x` the shifted logits and `L = log (∑ c, exp (s c))`, the loss of a label `p` is
  `L - s p` (minus the log-softmax at `p`), and the row's value weighs the three losses by which pair of
  labels coincides: the two equal labels get `f32(0.7)/2` each and the third `f32(0.3)`; a row with no
  coinciding pair is worth `0`.

  `rowK` spells it the way a one-hot pass computes it: the weights summed times `L`, minus the sum over all
  columns of the weights landing on that column times the shifted logit. `rowR` spells it the way a
  gather computes it: the three losses read at the labels' columns, then weighed. The two agree on finite
  rows with in-range labels (Proof/RowAlgebra.lean).
-/
import Idealize.ShloMosaic.PureOps.Ideal
import Idealize.ShloMosaic.Lib.ValueIdx

noncomputable section

open scoped BigOperators

namespace Cert.SoftCE

open Idealize.ShloMosaic Idealize.ShloMosaic.ValueIdx

/-- `f32(0.35)`, which is exactly half of `f32(0.7)`. -/
def cHalfA : EReal := Ideal.ofBits .f32 0x3EB33333#32
/-- `f32(0.3)`. -/
def cOneMinusA : EReal := Ideal.ofBits .f32 0x3E99999A#32
/-- `f32(0.7)`. -/
def cA : EReal := Ideal.ofBits .f32 0x3F333333#32
/-- `2`. -/
def cTwo : EReal := Ideal.ofBits .f32 0x40000000#32

section Row

variable (x : Fin 4096 → EReal) (p0 p1 p2 : BitVec 32)

/-- The row's maximum. -/
def rowMax : EReal := (Finset.univ : Finset (Fin 4096)).fold max ⊥ x
/-- The logit at column `c` less the row's maximum. -/
def shifted (c : Fin 4096) : EReal := x c - rowMax x
/-- The logarithm of the sum of the exponentials of the shifted logits. -/
def logSumExp : EReal := Ideal.log (∑ c : Fin 4096, Ideal.exp (shifted x c))

/-- The weight of the first label's loss. -/
def coef0 : EReal := if p0 = p1 then cHalfA else if p0 = p2 then cHalfA else if p1 = p2 then cOneMinusA else 0
/-- The weight of the second label's loss. -/
def coef1 : EReal := if p0 = p1 then cHalfA else if p0 = p2 then cOneMinusA else if p1 = p2 then cHalfA else 0
/-- The weight of the third label's loss. -/
def coef2 : EReal := if p0 = p1 then cOneMinusA else if p0 = p2 then cHalfA else if p1 = p2 then cHalfA else 0

/-- The weight `k` on the column the label word `p` names, `0` on every other column. -/
def hot (p : BitVec 32) (k : EReal) (c : Fin 4096) : EReal := if BitVec.ofNat 32 c.val = p then k else 0

/-- The row's value as a one-hot pass computes it. -/
def rowK : EReal :=
  (coef0 p0 p1 p2 + coef1 p0 p1 p2 + coef2 p0 p1 p2) * logSumExp x
    - ∑ c : Fin 4096, (hot p0 (coef0 p0 p1 p2) c + hot p1 (coef1 p0 p1 p2) c + hot p2 (coef2 p0 p1 p2) c) * shifted x c

/-- The column a label word names (for a word below 4096, its value). -/
def col (p : BitVec 32) : Fin 4096 := ⟨p.toNat % 4096, Nat.mod_lt _ (by decide)⟩
/-- The loss of label `p`: minus the log-softmax of the row at the label's column. -/
def loss (p : BitVec 32) : EReal := -(shifted x (col p) - logSumExp x)
/-- Two coinciding labels' losses `la`, `lb` and the third's `lc`, weighed. -/
def pairLoss (la lb lc : EReal) : EReal := Ideal.div (cA * (la + lb)) cTwo + cOneMinusA * lc

/-- The row's value as a gather computes it. -/
def rowR : EReal :=
  if p0 = p1 then pairLoss (loss x p0) (loss x p1) (loss x p2)
  else if p0 = p2 then pairLoss (loss x p0) (loss x p2) (loss x p1)
  else if p1 = p2 then pairLoss (loss x p1) (loss x p2) (loss x p0)
  else 0

end Row

/-! ## The arrays -/

abbrev SX : Shape := ⟨2, ![16384, 4096]⟩
abbrev SP : Shape := ⟨2, ![16384, 3]⟩
abbrev SO : Shape := ⟨1, ![16384]⟩

/-- Row `r` of the logits. -/
def xrow (X : SX.Idx → EReal) (r : Fin 16384) : Fin 4096 → EReal := fun k => X (ix2 r k)
/-- Label `j` of row `r`. -/
def plab (P : SP.Idx → BitVec 32) (r : Fin 16384) (j : Fin 3) : BitVec 32 := P (ix2 r j)

/-- The per-row values, the one-hot way. -/
def GK (X : SX.Idx → EReal) (P : SP.Idx → BitVec 32) : SO.Idx → EReal := fun i =>
  rowK (xrow X ⟨(i 0).val, (i 0).isLt⟩) (plab P ⟨(i 0).val, (i 0).isLt⟩ 0) (plab P ⟨(i 0).val, (i 0).isLt⟩ 1) (plab P ⟨(i 0).val, (i 0).isLt⟩ 2)

/-- The per-row values, the gather way. -/
def GR (X : SX.Idx → EReal) (P : SP.Idx → BitVec 32) : SO.Idx → EReal := fun i =>
  rowR (xrow X ⟨(i 0).val, (i 0).isLt⟩) (plab P ⟨(i 0).val, (i 0).isLt⟩ 0) (plab P ⟨(i 0).val, (i 0).isLt⟩ 1) (plab P ⟨(i 0).val, (i 0).isLt⟩ 2)

/-- The pattern of minus infinity is the bottom of the extended reals. -/
theorem ofBits_neg_inf : Ideal.ofBits .f32 0xFF800000#32 = (⊥ : EReal) := by
  simp [Ideal.ofBits, Ideal.ieee]

end Cert.SoftCE

end
-- ==== Proof.KernelBlock.lean ====
/-
  What the kernel's body leaves at one row of its output block: the one-hot row value of that row of its input blocks.
-/
import proofs.«409224_j1219770712179_3_alg».proof.Proof.Gen.KernelIdeal.Frame
import proofs.«409224_j1219770712179_3_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.KernelIdeal.KBlock

open Cert.KernelIdeal Cert.KernelIdeal.Gen Idealize.ShloMosaic Idealize.ShloMosaic.ValueIdx

/-! ## Columns: a vector as a one-column matrix and back, and a column spread over the lanes -/

section Column
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector made a column and spread over the lanes reads, at `(p, c)`, the vector at `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Column

/-! ## The three label words of a row -/

theorem label0_apply (v10 : Vec Ideal S256x3 .i32) (q : Fin 256) :
    k0_pay4 (F := Ideal) v10 (ix1 q) = v10 (ix2 q (0 : Fin 3)) := by
  unfold k0_pay4
  refine (shapeCast_a1_a_apply _ _ q).trans ?_
  exact slice2_axis1_apply 0 v10 _ q (0 : Fin 1) (0 : Fin 3) rfl

theorem label1_apply (v10 : Vec Ideal S256x3 .i32) (q : Fin 256) :
    k0_pay5 (F := Ideal) v10 (ix1 q) = v10 (ix2 q (1 : Fin 3)) := by
  unfold k0_pay5
  refine (shapeCast_a1_a_apply _ _ q).trans ?_
  exact slice2_axis1_apply 1 v10 _ q (0 : Fin 1) (1 : Fin 3) rfl

theorem label2_apply (v10 : Vec Ideal S256x3 .i32) (q : Fin 256) :
    k0_pay6 (F := Ideal) v10 (ix1 q) = v10 (ix2 q (2 : Fin 3)) := by
  unfold k0_pay6
  refine (shapeCast_a1_a_apply _ _ q).trans ?_
  exact slice2_axis1_apply 2 v10 _ q (0 : Fin 1) (2 : Fin 3) rfl

/-! ## Lane reductions of a row -/

/-- The lane maximum at row `q` is the row's maximum. -/
theorem laneMax_apply (v : FVec Ideal S256x4096 .f32) (h : S256x4096.Reduces [1] S256) (hφ : FKind.Formats .f32)
    (hacc : (0xFF800000#32 : BitVec 32) = FKind.maximumf.neutral .f32 hφ) (q : Fin 256) :
    multiReduction (F := Ideal) .maximumf [1] S256 v 0xFF800000#32 h hφ hacc (ix1 q)
      = Cert.SoftCE.rowMax (fun k => v (ix2 q k)) := by
  refine (Ideal.multiReduction_maximumf_single v 0xFF800000#32 h hφ hacc (ix1 q)).trans ?_
  unfold Cert.SoftCE.rowMax
  rw [Ideal.ofBits_def, Cert.SoftCE.ofBits_neg_inf]
  refine congrArg (Finset.fold max ⊥ · Finset.univ) ?_
  funext k
  refine congrArg v ?_
  funext a; apply Fin.ext
  match a with
  | ⟨0, _⟩ => rfl
  | ⟨1, _⟩ => rfl

/-- The lane sum at row `q` is the sum over the row's columns. -/
theorem laneSum_apply (v : FVec Ideal S256x4096 .f32) (h : S256x4096.Reduces [1] S256) (hφ : FKind.Formats .f32)
    (hacc : (0x00000000#32 : BitVec 32) = FKind.add.neutral .f32 hφ) (q : Fin 256) :
    multiReduction (F := Ideal) .add [1] S256 v 0x00000000#32 h hφ hacc (ix1 q) = ∑ k : Fin 4096, v (ix2 q k) := by
  refine (Ideal.multiReduction_add_single v 0x00000000#32 h hφ hacc (ix1 q)).trans ?_
  refine Finset.sum_congr rfl fun k _ => congrArg v ?_
  funext a; apply Fin.ext
  match a with
  | ⟨0, _⟩ => rfl
  | ⟨1, _⟩ => rfl

/-! ## The shifted logits and the log-sum-exp of a row -/

theorem shifted_apply (v0 : Vec Ideal S256x4096 .f32) (q : Fin 256) (k : Fin 4096) :
    k0_pay2 (F := Ideal) v0 (ix2 q k) = Cert.SoftCE.shifted (fun k' => v0 (ix2 q k')) k := by
  unfold k0_pay2
  refine (subf_apply _ _ _).trans ?_
  unfold Cert.SoftCE.shifted
  refine congrArg (fun z => v0 (ix2 q k) - z) ?_
  refine (column_spread_apply _ _ _ q k).trans ?_
  exact laneMax_apply v0 _ _ _ q

theorem logSumExp_apply (v0 : Vec Ideal S256x4096 .f32) (q : Fin 256) :
    k0_pay3 (F := Ideal) v0 (ix1 q) = Cert.SoftCE.logSumExp (fun k => v0 (ix2 q k)) := by
  unfold k0_pay3
  refine (shapeCast_a1_a_apply _ _ q).trans ?_
  unfold Cert.SoftCE.logSumExp
  show Ideal.log _ = Ideal.log _
  refine congrArg Ideal.log ?_
  refine (shapeCast_a_a1_apply _ _ q 0).trans ?_
  refine (laneSum_apply _ _ _ _ q).trans ?_
  refine Finset.sum_congr rfl fun k _ => ?_
  show Ideal.exp _ = Ideal.exp _
  exact congrArg Ideal.exp (shifted_apply v0 q k)

/-! ## The weights of a row -/

/-- A choice on a comparison for equality goes as the two words agree or not. -/
theorem select_cmpi_eq {α : Type} (a b : BitVec 32) (x y : α) :
    Scalar.select (IntOp.cmpi .eq a b) x y = if a = b then x else y := by
  unfold Scalar.select
  by_cases h : a = b
  · rw [if_pos h]; exact if_pos (StableHlo.Predicate.cmpi_eq_iff.mpr h)
  · rw [if_neg h]; exact if_neg (fun h' => h (StableHlo.Predicate.cmpi_eq_iff.mp h'))

theorem coef0_apply (v10 : Vec Ideal S256x3 .i32) (q : Fin 256) :
    k0_pay10 (F := Ideal) v10 (ix1 q)
      = Cert.SoftCE.coef0 (v10 (ix2 q (0 : Fin 3))) (v10 (ix2 q (1 : Fin 3))) (v10 (ix2 q (2 : Fin 3))) := by
  unfold k0_pay10 k0_pay7 k0_pay8 k0_pay9
  show Scalar.select (IntOp.cmpi .eq (k0_pay4 v10 (ix1 q)) (k0_pay5 v10 (ix1 q))) (Ideal.ofBits .f32 0x3EB33333#32)
        (Scalar.select (IntOp.cmpi .eq (k0_pay4 v10 (ix1 q)) (k0_pay6 v10 (ix1 q))) (Ideal.ofBits .f32 0x3EB33333#32)
          (Scalar.select (IntOp.cmpi .eq (k0_pay5 v10 (ix1 q)) (k0_pay6 v10 (ix1 q))) (Ideal.ofBits .f32 0x3E99999A#32)
            (Ideal.ofBits .f32 0x00000000#32))) = _
  rw [label0_apply, label1_apply, label2_apply, select_cmpi_eq, select_cmpi_eq, select_cmpi_eq, Ideal.ofBits_zero_f32]
  rfl

theorem coef1_apply (v10 : Vec Ideal S256x3 .i32) (q : Fin 256) :
    k0_pay11 (F := Ideal) v10 (ix1 q)
      = Cert.SoftCE.coef1 (v10 (ix2 q (0 : Fin 3))) (v10 (ix2 q (1 : Fin 3))) (v10 (ix2 q (2 : Fin 3))) := by
  unfold k0_pay11 k0_pay7 k0_pay8 k0_pay9
  show Scalar.select (IntOp.cmpi .eq (k0_pay4 v10 (ix1 q)) (k0_pay5 v10 (ix1 q))) (Ideal.ofBits .f32 0x3EB33333#32)
        (Scalar.select (IntOp.cmpi .eq (k0_pay4 v10 (ix1 q)) (k0_pay6 v10 (ix1 q))) (Ideal.ofBits .f32 0x3E99999A#32)
          (Scalar.select (IntOp.cmpi .eq (k0_pay5 v10 (ix1 q)) (k0_pay6 v10 (ix1 q))) (Ideal.ofBits .f32 0x3EB33333#32)
            (Ideal.ofBits .f32 0x00000000#32))) = _
  rw [label0_apply, label1_apply, label2_apply, select_cmpi_eq, select_cmpi_eq, select_cmpi_eq, Ideal.ofBits_zero_f32]
  rfl

theorem coef2_apply (v10 : Vec Ideal S256x3 .i32) (q : Fin 256) :
    k0_pay12 (F := Ideal) v10 (ix1 q)
      = Cert.SoftCE.coef2 (v10 (ix2 q (0 : Fin 3))) (v10 (ix2 q (1 : Fin 3))) (v10 (ix2 q (2 : Fin 3))) := by
  unfold k0_pay12 k0_pay7 k0_pay8 k0_pay9
  show Scalar.select (IntOp.cmpi .eq (k0_pay4 v10 (ix1 q)) (k0_pay5 v10 (ix1 q))) (Ideal.ofBits .f32 0x3E99999A#32)
        (Scalar.select (IntOp.cmpi .eq (k0_pay4 v10 (ix1 q)) (k0_pay6 v10 (ix1 q))) (Ideal.ofBits .f32 0x3EB33333#32)
          (Scalar.select (IntOp.cmpi .eq (k0_pay5 v10 (ix1 q)) (k0_pay6 v10 (ix1 q))) (Ideal.ofBits .f32 0x3EB33333#32)
            (Ideal.ofBits .f32 0x00000000#32))) = _
  rw [label0_apply, label1_apply, label2_apply, select_cmpi_eq, select_cmpi_eq, select_cmpi_eq, Ideal.ofBits_zero_f32]
  rfl

/-! ## The one-hot pass -/

/-- A row's weight placed on the column its label word names: the column counter compared with the label column,
    choosing between the weight column and zero. -/
theorem hot_apply (p : IVec S256 32) (c : FVec Ideal S256 .f32) (hi : S256x4096.Iotas .tc 32 [1])
    (hc : S256.ShapeCasts S256x1) (hc' : S256x1.ShapeCasts S256x1) (hb : S256x1.Broadcasts S256x4096)
    (q : Fin 256) (k : Fin 4096) :
    select (cmpi .eq (iota .tc S256x4096 32 [1] hi) (broadcastTo S256x4096 (shapeCast S256x1 p hc) hb))
        (broadcastTo S256x4096 (shapeCast S256x1 (shapeCast S256x1 c hc) hc') hb)
        (broadcast S256x4096 (Scalar.ofBits (F := Ideal) .f32 0x00000000#32)) (ix2 q k)
      = Cert.SoftCE.hot (p (ix1 q)) (c (ix1 q)) k := by
  show Scalar.select (IntOp.cmpi .eq (iota .tc S256x4096 32 [1] hi (ix2 q k))
          (broadcastTo S256x4096 (shapeCast S256x1 p hc) hb (ix2 q k)))
        (broadcastTo S256x4096 (shapeCast S256x1 (shapeCast S256x1 c hc) hc') hb (ix2 q k))
        (Ideal.ofBits .f32 0x00000000#32) = _
  rw [iota_single_apply, column_spread_apply, shapeCast_self, column_spread_apply, select_cmpi_eq, Ideal.ofBits_zero_f32]
  rfl

/-- The stored value at row `q`: the three weights summed times the row's log-sum-exp operand, less the sum over the
    columns of the weights landing on the column times the row's shifted operand there. -/
theorem rowValue_apply (v4 : FVec Ideal S256x4096 .f32) (v9 : FVec Ideal S256 .f32) (v12 v14 v16 : IVec S256 32)
    (v26 v33 v40 : FVec Ideal S256 .f32) (q : Fin 256) :
    k0_pay1 (F := Ideal) v4 v9 v12 v14 v16 v26 v33 v40 (ix1 q)
      = (v26 (ix1 q) + v33 (ix1 q) + v40 (ix1 q)) * v9 (ix1 q)
        - ∑ k : Fin 4096, (Cert.SoftCE.hot (v12 (ix1 q)) (v26 (ix1 q)) k + Cert.SoftCE.hot (v14 (ix1 q)) (v33 (ix1 q)) k
            + Cert.SoftCE.hot (v16 (ix1 q)) (v40 (ix1 q)) k) * v4 (ix2 q k) := by
  unfold k0_pay1
  refine (subf_apply _ _ _).trans ?_
  refine congrArg (fun z => (v26 (ix1 q) + v33 (ix1 q) + v40 (ix1 q)) * v9 (ix1 q) - z) ?_
  refine (laneSum_apply _ _ _ _ q).trans ?_
  refine Finset.sum_congr rfl fun k _ => ?_
  refine (mulf_apply _ _ _).trans ?_
  refine congrArg (fun z => z * v4 (ix2 q k)) ?_
  refine (addf_apply _ _ _).trans ?_
  refine congrArg₂ (fun y z => y + z) ((addf_apply _ _ _).trans ?_) (hot_apply v16 v40 _ _ _ _ q k)
  exact congrArg₂ (fun y z => y + z) (hot_apply v12 v26 _ _ _ _ q k) (hot_apply v14 v33 _ _ _ _ q k)

/-! ## The block's row -/

theorem zeros1 : (![0] : Fin 1 → Nat) = fun _ => 0 := funext fun a => match a with | ⟨0, _⟩ => rfl
theorem zeros2 : (![0, 0] : Fin 2 → Nat) = fun _ => 0 := funext fun a => match a with | ⟨0, _⟩ => rfl | ⟨1, _⟩ => rfl

theorem out_row (x0 : Vec Ideal S256x4096 .f32) (x1 : Vec Ideal S256x3 .i32) (q : Fin 256) :
    out0_2 (F := Ideal) x0 x1 (ix1 q)
      = Cert.SoftCE.rowK (fun k => x0 (ix2 q k)) (x1 (ix2 q (0 : Fin 3))) (x1 (ix2 q (1 : Fin 3))) (x1 (ix2 q (2 : Fin 3))) := by
  unfold out0_2
  rw [View.canon_unit_zero zeros1]
  simp only [View.ld_unit_zero (S := S256x4096) zeros2, View.ld_unit_zero (S := S256x3) zeros2]
  rw [rowValue_apply, logSumExp_apply, label0_apply, label1_apply, label2_apply, coef0_apply, coef1_apply, coef2_apply]
  unfold Cert.SoftCE.rowK
  refine congrArg (fun z => _ - z) (Finset.sum_congr rfl fun k _ => ?_)
  rw [shifted_apply]

end Cert.KernelIdeal.KBlock

end
-- ==== Proof.KernelValue.lean ====
/-
  The idealized kernel's run with its result named: the mean over the rows of the one-hot row values.
-/
import proofs.«409224_j1219770712179_3_alg».proof.Proof.Gen.KernelIdeal.Frame
import proofs.«409224_j1219770712179_3_alg».proof.Proof.Spec
import proofs.«409224_j1219770712179_3_alg».proof.Proof.KernelBlock
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.ValueIdx

section Blocks

variable (m : (ℓ : Loc nD τ sig) → Buf (Elt Ideal) ℓ)

/-- The three index maps, over the 64 grid points: point `t` takes block row `t` of each array (and block column 0 of
    the two matrices). -/
private theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val :=
  (by decide +kernel : ∀ t : Fin grid0.N, _)

/-- A grid point is below 64. -/
private theorem point_lt (t : Fin cfg0.N) : t.val < 64 := lt_of_lt_of_eq t.isLt N_0

/-- Row `q` of the logits' block at point `t` is row `256 t + q` of the logits. -/
private theorem logits_block_apply (c : Dev nD) (t : Fin cfg0.N) (q : Fin 256) (k : Fin 4096) (r : Fin 16384)
    (hr : r.val = t.val * 256 + q.val) :
    (iblk m c 0 t : Vec Ideal S256x4096 .f32) (ix2 q k) = (V m c main_arg0 : S16384x4096.Idx → EReal) (ix2 r k) := by
  obtain ⟨e0, e1, -, -, -⟩ := index_facts t
  unfold iblk
  rw [View.read_apply]
  show V m c main_arg0 _ = V m c main_arg0 _
  congr 1
  funext a
  apply Fin.ext
  match a with
  | ⟨0, _⟩ => show win0_0.index t (0 : Fin 2) * 256 + 1 * q.val = r.val; rw [e0, hr]; omega
  | ⟨1, _⟩ => show win0_0.index t (1 : Fin 2) * 4096 + 1 * k.val = k.val; rw [e1]; omega

/-- Row `q` of the labels' block at point `t` is row `256 t + q` of the labels. -/
private theorem labels_block_apply (c : Dev nD) (t : Fin cfg0.N) (q : Fin 256) (j : Fin 3) (r : Fin 16384)
    (hr : r.val = t.val * 256 + q.val) :
    (iblk m c 1 t : Vec Ideal S256x3 .i32) (ix2 q j) = (V m c main_arg2 : S16384x3.Idx → BitVec 32) (ix2 r j) := by
  obtain ⟨-, -, e0, e1, -⟩ := index_facts t
  unfold iblk
  rw [View.read_apply]
  show V m c main_arg2 _ = V m c main_arg2 _
  congr 1
  funext a
  apply Fin.ext
  match a with
  | ⟨0, _⟩ => show win0_1.index t (0 : Fin 2) * 256 + 1 * q.val = r.val; rw [e0, hr]; omega
  | ⟨1, _⟩ => show win0_1.index t (1 : Fin 2) * 3 + 1 * j.val = j.val; rw [e1]; omega

/-- What the body leaves at row `q` of the output block at point `t` is the row value of row `256 t + q` of the
    arrays: the block's row value, its rows of the two input blocks read in the arrays. -/
private theorem out_block_apply (c : Dev nD) (t : Fin cfg0.N) (q : Fin 256) (r : Fin 16384)
    (hr : r.val = t.val * 256 + q.val) :
    out0_2 (F := Ideal) (iblk m c 0 t) (iblk m c 1 t) (ix1 q)
      = Cert.SoftCE.GK (V m c main_arg0) (V m c main_arg2) (ix1 r) := by
  refine (KBlock.out_row (iblk m c 0 t) (iblk m c 1 t) q).trans ?_
  have hx : (fun k : Fin 4096 => (iblk m c 0 t : Vec Ideal S256x4096 .f32) (ix2 q k))
      = fun k : Fin 4096 => (V m c main_arg0 : S16384x4096.Idx → EReal) (ix2 r k) :=
    funext fun k => logits_block_apply m c t q k r hr
  exact congr (congr (congr (congrArg Cert.SoftCE.rowK hx) (labels_block_apply m c t q 0 r hr))
    (labels_block_apply m c t q 1 r hr)) (labels_block_apply m c t q 2 r hr)

/-- What point `t` writes back is block `t` of the per-row values of the arrays. -/
private theorem flushed_eq (c : Dev nD) (t : Fin cfg0.N) :
    (dats m 0 c).flushed 2 t
      = ((cfg0.win 2).blk t).view.read (Elt Ideal) (Cert.SoftCE.GK (V m c main_arg0) (V m c main_arg2)) := by
  show (cfg0.win 2).cut (grid0.coords t) ((dats m 0 c).after 2 t) = _
  rw [after0_2]
  funext y
  rw [View.read_apply]
  obtain ⟨-, -, -, -, e2⟩ := index_facts t
  have ht : t.val < 64 := point_lt t
  have hq : (y 0).val < 256 := (y 0).isLt
  have hin : (cfg0.win 2).xinj (grid0.coords t) y = ix1 (⟨(y 0).val, hq⟩ : Fin 256) := by
    funext a
    match a with
    | ⟨0, _⟩ => rfl
  have hemb : ((cfg0.win 2).blk t).view.emb y = ix1 (⟨t.val * 256 + (y 0).val, by omega⟩ : Fin 16384) := by
    funext a
    apply Fin.ext
    match a with
    | ⟨0, _⟩ => show win0_2.index t (0 : Fin 1) * 256 + 1 * (y 0).val = t.val * 256 + (y 0).val; rw [e2]; omega
  show out0_2 (F := Ideal) (iblk m c 0 t) (iblk m c 1 t) ((cfg0.win 2).xinj (grid0.coords t) y)
    = Cert.SoftCE.GK (V m c main_arg0) (V m c main_arg2) (((cfg0.win 2).blk t).view.emb y)
  rw [hin, hemb]
  exact out_block_apply m c t _ _ rfl

/-- A row of the output array is in point `t`'s block iff it lies in the block's range of 256 rows. -/
private theorem mem_blk (t : Fin cfg0.N) (i : S16384.Idx) :
    i ∈ ((cfg0.win 2).blk t).view.set ↔ ∀ a : Fin 1, win0_2.index t a * S256.size a ≤ (i a).val
      ∧ (i a).val < win0_2.index t a * S256.size a + S256.size a := by
  show i ∈ ((View.whole main_v0).slice (win0_2.rect t)).set ↔ _
  rw [View.set_slice_whole, Rect.mem_set_unit]
  exact Iff.rfl

/-- Every row of the output array is in some point's block: row `i` in that of point `i / 256`. -/
private theorem cover (i : S16384.Idx) :
    ∃ t : Fin cfg0.N, (cfg0.win 2).flush t = true ∧ i ∈ ((cfg0.win 2).blk t).view.set := by
  have hi : (i 0).val < 16384 := (i 0).isLt
  have hlt : (i 0).val / 256 < cfg0.N := lt_of_lt_of_eq (by omega : (i 0).val / 256 < 64) N_0.symm
  obtain ⟨-, -, -, -, e2⟩ := index_facts ⟨(i 0).val / 256, hlt⟩
  refine ⟨⟨(i 0).val / 256, hlt⟩, flush0_2 _, ?_⟩
  rw [mem_blk]
  intro a
  match a with
  | ⟨0, _⟩ =>
    show win0_2.index ⟨(i 0).val / 256, hlt⟩ (0 : Fin 1) * 256 ≤ (i 0).val
      ∧ (i 0).val < win0_2.index ⟨(i 0).val / 256, hlt⟩ (0 : Fin 1) * 256 + 256
    rw [e2]
    show (i 0).val / 256 * 256 ≤ (i 0).val ∧ (i 0).val < (i 0).val / 256 * 256 + 256
    omega

/-- The output array after the last point: the per-row values of the argument arrays. -/
private theorem final (c : Dev nD) :
    (dats m 0 c).arrAt 2 cfg0.N
      = Cert.SoftCE.GK (m ((c.tc : Thread nD τ).loc main_arg0)) (m ((c.tc : Thread nD τ).loc main_arg2)) :=
  ((dats m 0 c).arrAt_eq_of_cover 2 _ (fun t _ => flushed_eq m c t) cover).trans
    (by rw [V_main_arg0, V_main_arg2])

end Blocks

/-- The kernel program's result from the argument arrays: the rows' values summed from zero and divided by 16384. -/
def result (m : (ℓ : Loc nD τ sig) → Buf (Elt Ideal) ℓ) (c : Dev nD) : Buf (Elt Ideal) ((c.tc : Thread nD τ).loc main_v2) :=
  Host.divf (Host.reduceAdd (Cert.SoftCE.GK (m ((c.tc : Thread nD τ).loc main_arg0)) (m ((c.tc : Thread nD τ).loc main_arg2)))
    (constant (F := Ideal) S_ .f32 0x00000000#32) reducesTo_S16384_S_d0 h_S_) (constant (F := Ideal) S_ .f32 0x46800000#32)

/-- The operations after the region, read at their last result: the sum from zero of the output array's rows divided by
    16384, the output array being the per-row values of the argument arrays. -/
private theorem tail_value (m : (ℓ : Loc nD τ sig) → Buf (Elt Ideal) ℓ) (c : Dev nD) :
    Pipeline.afterTail₀ cfgs (dats m) 0 (V0 m) [hostOps1] c main_v2 = result m c := by
  have e : Pipeline.withArrays (cfgs 0).spec c (V0 m c) (fun w => (dats m 0 c).arrAt w (cfgs 0).N) (Proc.devRef .tc main_v0)
      = Cert.SoftCE.GK (m ((c.tc : Thread nD τ).loc main_arg0)) (m ((c.tc : Thread nD τ).loc main_arg2)) :=
    (Pipeline.withArrays_arr spec0 launch0.win.arr_inj c _ _ 2).trans (final m c)
  unfold Pipeline.afterTail₀ result
  show StableHlo.after hostOps1 _ (Proc.devRef .tc main_v2) = _
  after_results
  rw [e]

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (defs (F := Ideal)) _ _).mono (fun r h c => ?_) (run_main m ρ)
  exact ⟨((h c).2 main_v2 (Pipeline.mem_restRefs_of main_v2 (by decide) (by decide))).trans (tail_value m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).1 1).trans (((dats m 0 c).arrAt_in 1 rfl _).trans ((A_eq m c 1).trans (V_main_arg2 m c)))⟩

end Cert.KernelIdeal.KValue

end
-- ==== Proof.RefStages.lean ====
/-
  The reference's run with its result named by stages: the fold of the operations over the launch contents, read one
  stretch of operations at a time, each intermediate array at its stage of the argument arrays.
-/
import proofs.«409224_j1219770712179_3_alg».proof.Proof.RefReadPatched
import Idealize.ShloMosaic.Lib.Pipeline.Frame

noncomputable section

namespace Cert.ReferenceIdeal.RefStages

open Cert.ReferenceIdeal Cert.ReferenceIdeal.Gen Cert.ReferenceIdeal.RunP Cert.ReferenceIdeal.ReadP Idealize.ShloMosaic Idealize.ShloMosaic.TcCoe Idealize.SL.Sem Idealize.ShloMosaic.StableHlo

variable {F : FTy → Type} [FloatOps F]

/-- Contents carried to a typed reference's buffer and back are the contents. -/
private theorem ofBuf_toBuf {T : BufTy} (x : TRef sig T) (v : T.Contents (Elt F)) : x.ofBuf (x.toBuf v) = v := by
  obtain ⟨r, rfl, _, _⟩ := x; rfl

/-- At a reference typed by its own buffer type, carrying contents to the buffer changes nothing. -/
private theorem toBuf_self (r : Ref sig .tc) (h1 : r.ty = r.ty) (h2 : r.space ≠ .host) (h3 : r.isScoped = false)
    (v : r.ty.Contents (Elt F)) : (TRef.of (T := r.ty) r h1 h2 h3).toBuf v = v := rfl

/-- The log-softmax of the scores along the class axis (operations 1 to 15). -/
private abbrev logSoftmaxOps : List (HloOp τ sig (Elt F)) :=
  [ TRef.nullary (TRef.of (T := ⟨S_, .f32⟩) main_call0_cst) (constant S_ .f32 0xFF800000#32),
    TRef.binary (TRef.of (T := ⟨S16384x4096, .f32⟩) main_arg0) (TRef.of (T := ⟨S_, .f32⟩) main_call0_cst) (TRef.of (T := ⟨S16384, .f32⟩) main_call0_v0) (fun x v => Host.reduce FloatOps.maximumf x v reducesTo_S16384x4096_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x4096, .f32⟩) main_call0_v4) (broadcastInDim S16384x4096 ![0, 1] bcast_S16384x1_S16384x4096_0_1),
    TRef.binary (TRef.of (T := ⟨S16384x4096, .f32⟩) main_arg0) (TRef.of (T := ⟨S16384x4096, .f32⟩) main_call0_v4) (TRef.of (T := ⟨S16384x4096, .f32⟩) main_call0_v5) subf,
    TRef.unary (TRef.of (T := ⟨S16384x4096, .f32⟩) main_call0_v5) (TRef.of (T := ⟨S16384x4096, .f32⟩) main_call0_v6) Host.exp,
    TRef.nullary (TRef.of (T := ⟨S_, .f32⟩) main_call0_cst_1) (constant S_ .f32 0x00000000#32),
    TRef.binary (TRef.of (T := ⟨S16384x4096, .f32⟩) main_call0_v6) (TRef.of (T := ⟨S_, .f32⟩) main_call0_cst_1) (TRef.of (T := ⟨S16384, .f32⟩) main_call0_v7) (fun x v => Host.reduceAdd x v reducesTo_S16384x4096_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x4096, .f32⟩) main_call0_v10) (broadcastInDim S16384x4096 ![0, 1] bcast_S16384x1_S16384x4096_0_1),
    TRef.binary (TRef.of (T := ⟨S16384x4096, .f32⟩) main_call0_v5) (TRef.of (T := ⟨S16384x4096, .f32⟩) main_call0_v10) (TRef.of (T := ⟨S16384x4096, .f32⟩) main_v0) subf ]

/-- The gather of the log-probabilities at the three labels of each row, out-of-range labels read as NaN (operations 16 to 37). -/
private abbrev gatherOps : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S16384x3, .i32⟩) main_call1_v0) (broadcastInDim S16384x3 ![] bcast_S_S16384x3),
    TRef.binary (TRef.of (T := ⟨S16384x3, .i32⟩) main_arg2) (TRef.of (T := ⟨S16384x3, .i32⟩) main_call1_v0) (TRef.of (T := ⟨S16384x3, .i1⟩) main_call1_v1) (cmpi .slt),
    TRef.nullary (TRef.of (T := ⟨S_, .i32⟩) main_call1_c_0) (constantI S_ 32 4096#32),
    TRef.unary (TRef.of (T := ⟨S_, .i32⟩) main_call1_c_0) (TRef.of (T := ⟨S16384x3, .i32⟩) main_call1_v2) (broadcastInDim S16384x3 ![] bcast_S_S16384x3),
    TRef.binary (TRef.of (T := ⟨S16384x3, .i32⟩) main_arg2) (TRef.of (T := ⟨S16384x3, .i32⟩) main_call1_v2) (TRef.of (T := ⟨S16384x3, .i32⟩) main_call1_v3) addi,
    TRef.ternary (TRef.of (T := ⟨S16384x3, .i1⟩) main_call1_v1) (TRef.of (T := ⟨S16384x3, .i32⟩) main_call1_v3) (TRef.of (T := ⟨S16384x3, .i32⟩) main_arg2) (TRef.of (T := ⟨S16384x3, .i32⟩) main_call1_v4) select,
    TRef.reshape (TRef.of (T := ⟨S16384x3, .i32⟩) main_call1_v4) (TRef.of (T := ⟨S16384x3x1, .i32⟩) main_call1_v5) rfl shapeCasts_S16384x3_S16384x3x1,
    TRef.nullary (TRef.of (T := ⟨S1, .i32⟩) main_call1_c_1) (constantI S1 32 4095#32),
    TRef.nullary (TRef.of (T := ⟨S_, .i32⟩) main_call1_c_2) (constantI S_ 32 0#32),
    TRef.unary (TRef.of (T := ⟨S_, .i32⟩) main_call1_c_2) (TRef.of (T := ⟨S16384x3x1, .i32⟩) main_call1_v6) (broadcastInDim S16384x3x1 ![] bcast_S_S16384x3x1),
    TRef.binary (TRef.of (T := ⟨S16384x3x1, .i32⟩) main_call1_v5) (TRef.of (T := ⟨S16384x3x1, .i32⟩) main_call1_v6) (TRef.of (T := ⟨S16384x3x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16384x3x1, .i32⟩) main_call1_v9) (broadcastInDim S16384x3x1 ![0, 1, 2] bcast_S1x1x1_S16384x3x1_0_1_2),
    TRef.binary (TRef.of (T := ⟨S16384x3x1, .i32⟩) main_call1_v5) (TRef.of (T := ⟨S16384x3x1, .i32⟩) main_call1_v9) (TRef.of (T := ⟨S16384x3x1, .i1⟩) main_call1_v10) (cmpi .sle),
    TRef.binary (TRef.of (T := ⟨S16384x3x1, .i1⟩) main_call1_v7) (TRef.of (T := ⟨S16384x3x1, .i1⟩) main_call1_v10) (TRef.of (T := ⟨S16384x3x1, .i1⟩) main_call1_v11) andi,
    TRef.nullary (TRef.of (T := ⟨S_, .i1⟩) main_call1_c_3) (constantI S_ 1 1#1),
    TRef.binary (TRef.of (T := ⟨S16384x3x1, .i1⟩) main_call1_v11) (TRef.of (T := ⟨S_, .i1⟩) main_call1_c_3) (TRef.of (T := ⟨S16384x3, .i1⟩) main_call1_v12) (fun x v => Host.reduce IntOp.andi x v reducesTo_S16384x3x1_S16384x3_d2 h_S_),
    TRef.binary (TRef.of (T := ⟨S16384x4096, .f32⟩) main_v0) (TRef.of (T := ⟨S16384x3x1, .i32⟩) main_call1_v5) (TRef.of (T := ⟨S16384x3, .f32⟩) main_call1_v13) (fun x i => Host.gather gather_S16384x4096_S16384x3x1_S16384x3_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16384x3, .f32⟩) main_call1_v14) (broadcastInDim S16384x3 ![] bcast_S_S16384x3),
    TRef.ternary (TRef.of (T := ⟨S16384x3, .i1⟩) main_call1_v12) (TRef.of (T := ⟨S16384x3, .f32⟩) main_call1_v13) (TRef.of (T := ⟨S16384x3, .f32⟩) main_call1_v14) (TRef.of (T := ⟨S16384x3, .f32⟩) main_v1) select ]

/-- The negation, then the three columns of the negated gather and of the labels, each as a vector (operations 38 to 50). -/
private abbrev columnOps : List (HloOp τ sig (Elt F)) :=
  [ unary main_v1 main_v2 (Host.negf : (⟨S16384x3, .f32⟩ : BufTy).Contents (Elt F) → (⟨S16384x3, .f32⟩ : BufTy).Contents (Elt F)),
    unary main_v2 main_v3 ((extractStridedSlice S16384x1 ![0, 0] · slices_S16384x3_S16384x1_0_0) : (⟨S16384x3, .f32⟩ : BufTy).Contents (Elt F) → (⟨S16384x1, .f32⟩ : BufTy).Contents (Elt F)),
    reshape main_v3 main_v4 rfl shapeCasts_S16384x1_S16384,
    unary main_v2 main_v5 ((extractStridedSlice S16384x1 ![0, 1] · slices_S16384x3_S16384x1_0_1) : (⟨S16384x3, .f32⟩ : BufTy).Contents (Elt F) → (⟨S16384x1, .f32⟩ : BufTy).Contents (Elt F)),
    reshape main_v5 main_v6 rfl shapeCasts_S16384x1_S16384,
    unary main_v2 main_v7 ((extractStridedSlice S16384x1 ![0, 2] · slices_S16384x3_S16384x1_0_2) : (⟨S16384x3, .f32⟩ : BufTy).Contents (Elt F) → (⟨S16384x1, .f32⟩ : BufTy).Contents (Elt F)),
    reshape main_v7 main_v8 rfl shapeCasts_S16384x1_S16384,
    unary main_arg2 main_v9 ((extractStridedSlice S16384x1 ![0, 0] · slices_S16384x3_S16384x1_0_0) : (⟨S16384x3, .i32⟩ : BufTy).Contents (Elt F) → (⟨S16384x1, .i32⟩ : BufTy).Contents (Elt F)),
    reshape main_v9 main_v10 rfl shapeCasts_S16384x1_S16384,
    unary main_arg2 main_v11 ((extractStridedSlice S16384x1 ![0, 1] · slices_S16384x3_S16384x1_0_1) : (⟨S16384x3, .i32⟩ : BufTy).Contents (Elt F) → (⟨S16384x1, .i32⟩ : BufTy).Contents (Elt F)),
    reshape main_v11 main_v12 rfl shapeCasts_S16384x1_S16384,
    unary main_arg2 main_v13 ((extractStridedSlice S16384x1 ![0, 2] · slices_S16384x3_S16384x1_0_2) : (⟨S16384x3, .i32⟩ : BufTy).Contents (Elt F) → (⟨S16384x1, .i32⟩ : BufTy).Contents (Elt F)),
    reshape main_v13 main_v14 rfl shapeCasts_S16384x1_S16384 ]

/-- Labels 0 and 1 compared, and the weighted loss of that case (operations 51 to 62). -/
private abbrev pair01Ops : List (HloOp τ sig (Elt F)) :=
  [ binary main_v10 main_v12 main_v15 (cmpi .eq : (⟨S16384, .i32⟩ : BufTy).Contents (Elt F) → (⟨S16384, .i32⟩ : BufTy).Contents (Elt F) → (⟨S16384, .i1⟩ : BufTy).Contents (Elt F)),
    binary main_v4 main_v6 main_v16 (addf : (⟨S16384, .f32⟩ : BufTy).Contents (Elt F) → (⟨S16384, .f32⟩ : BufTy).Contents (Elt F) → (⟨S16384, .f32⟩ : BufTy).Contents (Elt F)),
    nullary main_cst (constant S_ .f32 0x3F333333#32),
    unary main_cst main_v17 (broadcastInDim S16384 ![] bcast_S_S16384 : (⟨S_, .f32⟩ : BufTy).Contents (Elt F) → (⟨S16384, .f32⟩ : BufTy).Contents (Elt F)),
    binary main_v17 main_v16 main_v18 (mulf : (⟨S16384, .f32⟩ : BufTy).Contents (Elt F) → (⟨S16384, .f32⟩ : BufTy).Contents (Elt F) → (⟨S16384, .f32⟩ : BufTy).Contents (Elt F)),
    nullary main_cst_0 (constant S_ .f32 0x40000000#32),
    unary main_cst_0 main_v19 (broadcastInDim S16384 ![] bcast_S_S16384 : (⟨S_, .f32⟩ : BufTy).Contents (Elt F) → (⟨S16384, .f32⟩ : BufTy).Contents (Elt F)),
    binary main_v18 main_v19 main_v20 (Host.divf : (⟨S16384, .f32⟩ : BufTy).Contents (Elt F) → (⟨S16384, .f32⟩ : BufTy).Contents (Elt F) → (⟨S16384, .f32⟩ : BufTy).Contents (Elt F)),
    nullary main_cst_1 (constant S_ .f32 0x3E99999A#32),
    unary main_cst_1 main_v21 (broadcastInDim S16384 ![] bcast_S_S16384 : (⟨S_, .f32⟩ : BufTy).Contents (Elt F) → (⟨S16384, .f32⟩ : BufTy).Contents (Elt F)),
    binary main_v21 main_v8 main_v22 (mulf : (⟨S16384, .f32⟩ : BufTy).Contents (Elt F) → (⟨S16384, .f32⟩ : BufTy).Contents (Elt F) → (⟨S16384, .f32⟩ : BufTy).Contents (Elt F)),
    binary main_v20 main_v22 main_v23 (addf : (⟨S16384, .f32⟩ : BufTy).Contents (Elt F) → (⟨S16384, .f32⟩ : BufTy).Contents (Elt F) → (⟨S16384, .f32⟩ : BufTy).Contents (Elt F)) ]

/-- Labels 0 and 2 compared, and the weighted loss of that case (operations 63 to 74). -/
private abbrev pair02Ops : List (HloOp τ sig (Elt F)) :=
  [ binary main_v10 main_v14 main_v24 (cmpi .eq : (⟨S16384, .i32⟩ : BufTy).Contents (Elt F) → (⟨S16384, .i32⟩ : BufTy).Contents (Elt F) → (⟨S16384, .i1⟩ : BufTy).Contents (Elt F)),
    binary main_v4 main_v8 main_v25 (addf : (⟨S16384, .f32⟩ : BufTy).Contents (Elt F) → (⟨S16384, .f32⟩ : BufTy).Contents (Elt F) → (⟨S16384, .f32⟩ : BufTy).Contents (Elt F)),
    nullary main_cst_2 (constant S_ .f32 0x3F333333#32),
    unary main_cst_2 main_v26 (broadcastInDim S16384 ![] bcast_S_S16384 : (⟨S_, .f32⟩ : BufTy).Contents (Elt F) → (⟨S16384, .f32⟩ : BufTy).Contents (Elt F)),
    binary main_v26 main_v25 main_v27 (mulf : (⟨S16384, .f32⟩ : BufTy).Contents (Elt F) → (⟨S16384, .f32⟩ : BufTy).Contents (Elt F) → (⟨S16384, .f32⟩ : BufTy).Contents (Elt F)),
    nullary main_cst_3 (constant S_ .f32 0x40000000#32),
    unary main_cst_3 main_v28 (broadcastInDim S16384 ![] bcast_S_S16384 : (⟨S_, .f32⟩ : BufTy).Contents (Elt F) → (⟨S16384, .f32⟩ : BufTy).Contents (Elt F)),
    binary main_v27 main_v28 main_v29 (Host.divf : (⟨S16384, .f32⟩ : BufTy).Contents (Elt F) → (⟨S16384, .f32⟩ : BufTy).Contents (Elt F) → (⟨S16384, .f32⟩ : BufTy).Contents (Elt F)),
    nullary main_cst_4 (constant S_ .f32 0x3E99999A#32),
    unary main_cst_4 main_v30 (broadcastInDim S16384 ![] bcast_S_S16384 : (⟨S_, .f32⟩ : BufTy).Contents (Elt F) → (⟨S16384, .f32⟩ : BufTy).Contents (Elt F)),
    binary main_v30 main_v6 main_v31 (mulf : (⟨S16384, .f32⟩ : BufTy).Contents (Elt F) → (⟨S16384, .f32⟩ : BufTy).Contents (Elt F) → (⟨S16384, .f32⟩ : BufTy).Contents (Elt F)),
    binary main_v29 main_v31 main_v32 (addf : (⟨S16384, .f32⟩ : BufTy).Contents (Elt F) → (⟨S16384, .f32⟩ : BufTy).Contents (Elt F) → (⟨S16384, .f32⟩ : BufTy).Contents (Elt F)) ]

/-- Labels 1 and 2 compared, and the weighted loss of that case (operations 75 to 86). -/
private abbrev pair12Ops : List (HloOp τ sig (Elt F)) :=
  [ binary main_v12 main_v14 main_v33 (cmpi .eq : (⟨S16384, .i32⟩ : BufTy).Contents (Elt F) → (⟨S16384, .i32⟩ : BufTy).Contents (Elt F) → (⟨S16384, .i1⟩ : BufTy).Contents (Elt F)),
    binary main_v6 main_v8 main_v34 (addf : (⟨S16384, .f32⟩ : BufTy).Contents (Elt F) → (⟨S16384, .f32⟩ : BufTy).Contents (Elt F) → (⟨S16384, .f32⟩ : BufTy).Contents (Elt F)),
    nullary main_cst_5 (constant S_ .f32 0x3F333333#32),
    unary main_cst_5 main_v35 (broadcastInDim S16384 ![] bcast_S_S16384 : (⟨S_, .f32⟩ : BufTy).Contents (Elt F) → (⟨S16384, .f32⟩ : BufTy).Contents (Elt F)),
    binary main_v35 main_v34 main_v36 (mulf : (⟨S16384, .f32⟩ : BufTy).Contents (Elt F) → (⟨S16384, .f32⟩ : BufTy).Contents (Elt F) → (⟨S16384, .f32⟩ : BufTy).Contents (Elt F)),
    nullary main_cst_6 (constant S_ .f32 0x40000000#32),
    unary main_cst_6 main_v37 (broadcastInDim S16384 ![] bcast_S_S16384 : (⟨S_, .f32⟩ : BufTy).Contents (Elt F) → (⟨S16384, .f32⟩ : BufTy).Contents (Elt F)),
    binary main_v36 main_v37 main_v38 (Host.divf : (⟨S16384, .f32⟩ : BufTy).Contents (Elt F) → (⟨S16384, .f32⟩ : BufTy).Contents (Elt F) → (⟨S16384, .f32⟩ : BufTy).Contents (Elt F)),
    nullary main_cst_7 (constant S_ .f32 0x3E99999A#32),
    unary main_cst_7 main_v39 (broadcastInDim S16384 ![] bcast_S_S16384 : (⟨S_, .f32⟩ : BufTy).Contents (Elt F) → (⟨S16384, .f32⟩ : BufTy).Contents (Elt F)),
    binary main_v39 main_v4 main_v40 (mulf : (⟨S16384, .f32⟩ : BufTy).Contents (Elt F) → (⟨S16384, .f32⟩ : BufTy).Contents (Elt F) → (⟨S16384, .f32⟩ : BufTy).Contents (Elt F)),
    binary main_v38 main_v40 main_v41 (addf : (⟨S16384, .f32⟩ : BufTy).Contents (Elt F) → (⟨S16384, .f32⟩ : BufTy).Contents (Elt F) → (⟨S16384, .f32⟩ : BufTy).Contents (Elt F)) ]

/-- The case selection row by row, the sum over the rows and the division by their number (operations 87 to 96). -/
private abbrev lossOps : List (HloOp τ sig (Elt F)) :=
  [ nullary main_cst_8 (constant S_ .f32 0x00000000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S16384, .f32⟩) main_call2_v1) (broadcastInDim S16384 ![] bcast_S_S16384),
    TRef.ternary (TRef.of (T := ⟨S16384, .i1⟩) main_v33) (TRef.of (T := ⟨S16384, .f32⟩) main_v41) (TRef.of (T := ⟨S16384, .f32⟩) main_call2_v1) (TRef.of (T := ⟨S16384, .f32⟩) main_v42) select,
    TRef.ternary (TRef.of (T := ⟨S16384, .i1⟩) main_v24) (TRef.of (T := ⟨S16384, .f32⟩) main_v32) (TRef.of (T := ⟨S16384, .f32⟩) main_v42) (TRef.of (T := ⟨S16384, .f32⟩) main_v43) select,
    TRef.ternary (TRef.of (T := ⟨S16384, .i1⟩) main_v15) (TRef.of (T := ⟨S16384, .f32⟩) main_v23) (TRef.of (T := ⟨S16384, .f32⟩) main_v43) (TRef.of (T := ⟨S16384, .f32⟩) main_v44) select,
    nullary main_cst_9 (constant S_ .f32 0x00000000#32),
    binary main_v44 main_cst_9 main_v45 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_10 (constant S_ .f32 0x46800000#32),
    binary main_v45 main_cst_10 main_v46 (Host.divf : (⟨S_, .f32⟩ : BufTy).Contents (Elt F) → (⟨S_, .f32⟩ : BufTy).Contents (Elt F) → (⟨S_, .f32⟩ : BufTy).Contents (Elt F)) ]

/-- The operations are the seven stretches in order. -/
private theorem ops_eq : ops (F := F) = logSoftmaxOps ++ (gatherOps ++ (columnOps ++ (pair01Ops ++ (pair02Ops ++ (pair12Ops ++ lossOps))))) := rfl

/-! Each stretch read by itself, from any contents `W`: given the arrays it reads from the stretches before at their
stages of the argument arrays `X` (the scores) and `P` (the labels), the arrays it writes are at their stages, and the
arrays it does not write are as they were. -/

section Stretches

variable (W : Valuation τ sig (Elt F)) (X : (⟨S16384x4096, .f32⟩ : BufTy).Contents (Elt F)) (P : (⟨S16384x3, .i32⟩ : BufTy).Contents (Elt F))

/-- The log-softmax stretch leaves the log-probabilities at their stage of the scores. -/
private theorem logSoftmax_v0 (hX : W (Proc.devRef .tc main_arg0) = X) :
    after (logSoftmaxOps (F := F)) W (Proc.devRef .tc main_v0) = val_main_v0 X := by
  subst hX
  after_results_simp; simp only [ofBuf_toBuf]
  refine (toBuf_self main_v0 _ _ _ _).trans ?_
  rfl

/-- The log-softmax stretch does not write the labels. -/
private theorem logSoftmax_keeps :
    after (logSoftmaxOps (F := F)) W (Proc.devRef .tc main_arg2) = W (Proc.devRef .tc main_arg2) := by
  after_results_simp

/-- The gather stretch leaves the gathered log-probabilities at their stage. -/
private theorem gather_v1 (h_v0 : W (Proc.devRef .tc main_v0) = val_main_v0 X)
    (hP : W (Proc.devRef .tc main_arg2) = P) :
    after (gatherOps (F := F)) W (Proc.devRef .tc main_v1) = val_main_v1 X P := by
  subst hP
  after_results_simp; simp only [ofBuf_toBuf]
  refine (toBuf_self main_v1 _ _ _ _).trans ?_
  simp only [val_main_v1, val_main_call1_v14, val_main_call1_cst, val_main_call1_v13, val_main_call1_v12, val_main_call1_c_3, val_main_call1_v11, val_main_call1_v10, val_main_call1_v9, val_main_call1_v8, val_main_call1_v7, val_main_call1_v6, val_main_call1_c_2, val_main_call1_c_1, val_main_call1_v5, val_main_call1_v4, val_main_call1_v3, val_main_call1_v2, val_main_call1_c_0, val_main_call1_v1, val_main_call1_v0, val_main_call1_c]
  rw [← h_v0]
  rfl

/-- The gather stretch does not write the labels. -/
private theorem gather_keeps :
    after (gatherOps (F := F)) W (Proc.devRef .tc main_arg2) = W (Proc.devRef .tc main_arg2) := by
  after_results_simp

/-- The column stretch leaves column 0 of the negated gather at its stage. -/
private theorem columns_v4 (h_v1 : W (Proc.devRef .tc main_v1) = val_main_v1 X P) :
    after (columnOps (F := F)) W (Proc.devRef .tc main_v4) = val_main_v4 X P := by
  after_results_simp
  simp only [val_main_v4, val_main_v3, val_main_v2]
  rw [← h_v1]
  rfl

/-- The column stretch leaves column 1 of the negated gather at its stage. -/
private theorem columns_v6 (h_v1 : W (Proc.devRef .tc main_v1) = val_main_v1 X P) :
    after (columnOps (F := F)) W (Proc.devRef .tc main_v6) = val_main_v6 X P := by
  after_results_simp
  simp only [val_main_v6, val_main_v5, val_main_v2]
  rw [← h_v1]
  rfl

/-- The column stretch leaves column 2 of the negated gather at its stage. -/
private theorem columns_v8 (h_v1 : W (Proc.devRef .tc main_v1) = val_main_v1 X P) :
    after (columnOps (F := F)) W (Proc.devRef .tc main_v8) = val_main_v8 X P := by
  after_results_simp
  simp only [val_main_v8, val_main_v7, val_main_v2]
  rw [← h_v1]
  rfl

/-- The column stretch leaves label 0 at its stage. -/
private theorem columns_v10 (hP : W (Proc.devRef .tc main_arg2) = P) :
    after (columnOps (F := F)) W (Proc.devRef .tc main_v10) = val_main_v10 P := by
  subst hP
  after_results_simp
  rfl

/-- The column stretch leaves label 1 at its stage. -/
private theorem columns_v12 (hP : W (Proc.devRef .tc main_arg2) = P) :
    after (columnOps (F := F)) W (Proc.devRef .tc main_v12) = val_main_v12 P := by
  subst hP
  after_results_simp
  rfl

/-- The column stretch leaves label 2 at its stage. -/
private theorem columns_v14 (hP : W (Proc.devRef .tc main_arg2) = P) :
    after (columnOps (F := F)) W (Proc.devRef .tc main_v14) = val_main_v14 P := by
  subst hP
  after_results_simp
  rfl

/-- The comparison of labels 0 and 1 is at its stage. -/
private theorem pair01_v15 (h_v10 : W (Proc.devRef .tc main_v10) = val_main_v10 P)
    (h_v12 : W (Proc.devRef .tc main_v12) = val_main_v12 P) :
    after (pair01Ops (F := F)) W (Proc.devRef .tc main_v15) = val_main_v15 P := by
  after_results_simp
  simp only [val_main_v15]
  rw [← h_v10, ← h_v12]

/-- The weighted loss of the case that labels 0 and 1 agree is at its stage. -/
private theorem pair01_v23 (h_v4 : W (Proc.devRef .tc main_v4) = val_main_v4 X P)
    (h_v6 : W (Proc.devRef .tc main_v6) = val_main_v6 X P)
    (h_v8 : W (Proc.devRef .tc main_v8) = val_main_v8 X P) :
    after (pair01Ops (F := F)) W (Proc.devRef .tc main_v23) = val_main_v23 X P := by
  after_results_simp
  simp only [val_main_v23, val_main_v22, val_main_v21, val_main_cst_1, val_main_v20, val_main_v19, val_main_cst_0, val_main_v18, val_main_v17, val_main_cst, val_main_v16]
  rw [← h_v4, ← h_v6, ← h_v8]

/-- The first case stretch does not write the columns. -/
private theorem pair01_keeps :
    after (pair01Ops (F := F)) W (Proc.devRef .tc main_v4) = W (Proc.devRef .tc main_v4)
      ∧ after (pair01Ops (F := F)) W (Proc.devRef .tc main_v6) = W (Proc.devRef .tc main_v6)
      ∧ after (pair01Ops (F := F)) W (Proc.devRef .tc main_v8) = W (Proc.devRef .tc main_v8)
      ∧ after (pair01Ops (F := F)) W (Proc.devRef .tc main_v10) = W (Proc.devRef .tc main_v10)
      ∧ after (pair01Ops (F := F)) W (Proc.devRef .tc main_v12) = W (Proc.devRef .tc main_v12)
      ∧ after (pair01Ops (F := F)) W (Proc.devRef .tc main_v14) = W (Proc.devRef .tc main_v14) := by
  refine ⟨?_, ?_, ?_, ?_, ?_, ?_⟩ <;> after_results_simp

/-- The comparison of labels 0 and 2 is at its stage. -/
private theorem pair02_v24 (h_v10 : W (Proc.devRef .tc main_v10) = val_main_v10 P)
    (h_v14 : W (Proc.devRef .tc main_v14) = val_main_v14 P) :
    after (pair02Ops (F := F)) W (Proc.devRef .tc main_v24) = val_main_v24 P := by
  after_results_simp
  simp only [val_main_v24]
  rw [← h_v10, ← h_v14]

/-- The weighted loss of the case that labels 0 and 2 agree is at its stage. -/
private theorem pair02_v32 (h_v4 : W (Proc.devRef .tc main_v4) = val_main_v4 X P)
    (h_v8 : W (Proc.devRef .tc main_v8) = val_main_v8 X P)
    (h_v6 : W (Proc.devRef .tc main_v6) = val_main_v6 X P) :
    after (pair02Ops (F := F)) W (Proc.devRef .tc main_v32) = val_main_v32 X P := by
  after_results_simp
  simp only [val_main_v32, val_main_v31, val_main_v30, val_main_cst_4, val_main_v29, val_main_v28, val_main_cst_3, val_main_v27, val_main_v26, val_main_cst_2, val_main_v25]
  rw [← h_v4, ← h_v8, ← h_v6]

/-- The second case stretch does not write the columns it leaves to the third, nor the first case's results. -/
private theorem pair02_keeps :
    after (pair02Ops (F := F)) W (Proc.devRef .tc main_v4) = W (Proc.devRef .tc main_v4)
      ∧ after (pair02Ops (F := F)) W (Proc.devRef .tc main_v6) = W (Proc.devRef .tc main_v6)
      ∧ after (pair02Ops (F := F)) W (Proc.devRef .tc main_v8) = W (Proc.devRef .tc main_v8)
      ∧ after (pair02Ops (F := F)) W (Proc.devRef .tc main_v12) = W (Proc.devRef .tc main_v12)
      ∧ after (pair02Ops (F := F)) W (Proc.devRef .tc main_v14) = W (Proc.devRef .tc main_v14)
      ∧ after (pair02Ops (F := F)) W (Proc.devRef .tc main_v15) = W (Proc.devRef .tc main_v15)
      ∧ after (pair02Ops (F := F)) W (Proc.devRef .tc main_v23) = W (Proc.devRef .tc main_v23) := by
  refine ⟨?_, ?_, ?_, ?_, ?_, ?_, ?_⟩ <;> after_results_simp

/-- The comparison of labels 1 and 2 is at its stage. -/
private theorem pair12_v33 (h_v12 : W (Proc.devRef .tc main_v12) = val_main_v12 P)
    (h_v14 : W (Proc.devRef .tc main_v14) = val_main_v14 P) :
    after (pair12Ops (F := F)) W (Proc.devRef .tc main_v33) = val_main_v33 P := by
  after_results_simp
  simp only [val_main_v33]
  rw [← h_v12, ← h_v14]

/-- The weighted loss of the case that labels 1 and 2 agree is at its stage. -/
private theorem pair12_v41 (h_v6 : W (Proc.devRef .tc main_v6) = val_main_v6 X P)
    (h_v8 : W (Proc.devRef .tc main_v8) = val_main_v8 X P)
    (h_v4 : W (Proc.devRef .tc main_v4) = val_main_v4 X P) :
    after (pair12Ops (F := F)) W (Proc.devRef .tc main_v41) = val_main_v41 X P := by
  after_results_simp
  simp only [val_main_v41, val_main_v40, val_main_v39, val_main_cst_7, val_main_v38, val_main_v37, val_main_cst_6, val_main_v36, val_main_v35, val_main_cst_5, val_main_v34]
  rw [← h_v6, ← h_v8, ← h_v4]

/-- The third case stretch does not write the first two cases' results. -/
private theorem pair12_keeps :
    after (pair12Ops (F := F)) W (Proc.devRef .tc main_v15) = W (Proc.devRef .tc main_v15)
      ∧ after (pair12Ops (F := F)) W (Proc.devRef .tc main_v23) = W (Proc.devRef .tc main_v23)
      ∧ after (pair12Ops (F := F)) W (Proc.devRef .tc main_v24) = W (Proc.devRef .tc main_v24)
      ∧ after (pair12Ops (F := F)) W (Proc.devRef .tc main_v32) = W (Proc.devRef .tc main_v32) := by
  refine ⟨?_, ?_, ?_, ?_⟩ <;> after_results_simp

/-- The last stretch leaves the mean loss at its stage. -/
private theorem loss_v46 (h_v15 : W (Proc.devRef .tc main_v15) = val_main_v15 P)
    (h_v23 : W (Proc.devRef .tc main_v23) = val_main_v23 X P)
    (h_v24 : W (Proc.devRef .tc main_v24) = val_main_v24 P)
    (h_v32 : W (Proc.devRef .tc main_v32) = val_main_v32 X P)
    (h_v33 : W (Proc.devRef .tc main_v33) = val_main_v33 P)
    (h_v41 : W (Proc.devRef .tc main_v41) = val_main_v41 X P) :
    after (lossOps (F := F)) W (Proc.devRef .tc main_v46) = val_main_v46 X P := by
  after_results_simp; simp only [ofBuf_toBuf]
  simp only [val_main_v46, val_main_cst_10, val_main_v45, val_main_cst_9, val_main_v44, val_main_v43, val_main_v42, val_main_call2_v1, val_main_call2_v0, val_main_cst_8]
  rw [← h_v15, ← h_v23, ← h_v24, ← h_v32, ← h_v33, ← h_v41]
  rfl

end Stretches

/-- After all the operations the result buffer holds the last stage of the two argument arrays it depends on. -/
theorem after_ops (V : Valuation τ sig (Elt F)) :
    after (ops (F := F)) V (Proc.devRef .tc main_v46)
      = val_main_v46 (F := F) (V (Proc.devRef .tc main_arg0)) (V (Proc.devRef .tc main_arg2)) := by
  rw [ops_eq]; simp only [StableHlo.after_append]
  -- the log-softmax
  have a0 := logSoftmax_v0 V _ rfl
  have aP := logSoftmax_keeps V
  generalize after (logSoftmaxOps (F := F)) V = W1 at a0 aP ⊢
  -- the gather
  have b1 := gather_v1 W1 _ _ a0 aP
  have bP := (gather_keeps W1).trans aP
  generalize after (gatherOps (F := F)) W1 = W2 at b1 bP ⊢
  -- the columns
  have c4 := columns_v4 W2 _ _ b1
  have c6 := columns_v6 W2 _ _ b1
  have c8 := columns_v8 W2 _ _ b1
  have c10 := columns_v10 W2 _ bP
  have c12 := columns_v12 W2 _ bP
  have c14 := columns_v14 W2 _ bP
  generalize after (columnOps (F := F)) W2 = W3 at c4 c6 c8 c10 c12 c14 ⊢
  -- labels 0 and 1
  have d15 := pair01_v15 W3 _ c10 c12
  have d23 := pair01_v23 W3 _ _ c4 c6 c8
  obtain ⟨k4, k6, k8, k10, k12, k14⟩ := pair01_keeps W3
  have d4 := k4.trans c4
  have d6 := k6.trans c6
  have d8 := k8.trans c8
  have d10 := k10.trans c10
  have d12 := k12.trans c12
  have d14 := k14.trans c14
  clear k4 k6 k8 k10 k12 k14
  generalize after (pair01Ops (F := F)) W3 = W4 at d15 d23 d4 d6 d8 d10 d12 d14 ⊢
  -- labels 0 and 2
  have e24 := pair02_v24 W4 _ d10 d14
  have e32 := pair02_v32 W4 _ _ d4 d8 d6
  obtain ⟨k4, k6, k8, k12, k14, k15, k23⟩ := pair02_keeps W4
  have e4 := k4.trans d4
  have e6 := k6.trans d6
  have e8 := k8.trans d8
  have e12 := k12.trans d12
  have e14 := k14.trans d14
  have e15 := k15.trans d15
  have e23 := k23.trans d23
  clear k4 k6 k8 k12 k14 k15 k23
  generalize after (pair02Ops (F := F)) W4 = W5 at e24 e32 e4 e6 e8 e12 e14 e15 e23 ⊢
  -- labels 1 and 2
  have f33 := pair12_v33 W5 _ e12 e14
  have f41 := pair12_v41 W5 _ _ e6 e8 e4
  obtain ⟨k15, k23, k24, k32⟩ := pair12_keeps W5
  have f15 := k15.trans e15
  have f23 := k23.trans e23
  have f24 := k24.trans e24
  have f32 := k32.trans e32
  clear k15 k23 k24 k32
  generalize after (pair12Ops (F := F)) W5 = W6 at f33 f41 f15 f23 f24 f32 ⊢
  -- the selection, the sum and the mean
  exact loss_v46 W6 _ _ f15 f23 f24 f32 f33 f41

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
        = val_main_v46 (F := F) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (after_ops (launchContents m c)), (h c).2⟩) (RunP.run m ρ)

end Cert.ReferenceIdeal.RefStages

end
-- ==== Proof.RefLogp.lean ====
/-
  The reference's log-softmax at an index: the shifted logit less the log of the sum of the exponentials of the row's
  shifted logits.
-/
import proofs.«409224_j1219770712179_3_alg».proof.Proof.RefReadPatched
import proofs.«409224_j1219770712179_3_alg».proof.Proof.Spec
import Idealize.ShloMosaic.Lib.ValueIdx
import Idealize.ShloMosaic.PureOps.Ideal.Laws
import Idealize.ShloMosaic.PureOps.Reduce

noncomputable section

namespace Cert.ReferenceIdeal.RefLogp

open Cert.ReferenceIdeal Cert.ReferenceIdeal.Gen Idealize.ShloMosaic Idealize.ShloMosaic.ValueIdx

/-! ## Index equations -/

/-- The logits' shape loses its column axis to the rows' shape. -/
private theorem reduces_cols : S16384x4096.Reduces [1] S16384 := by decide

/-- Over row `r`, the logits' index with column `k` inserted is `(r, k)`. -/
private theorem lift_row (r : Fin 16384) (k : Fin 4096) :
    reduces_cols.lift (ix1 r) k = ix2 r k :=
  funext fun a => Fin.ext (by match a with | ⟨0, _⟩ => rfl | ⟨1, _⟩ => rfl)

/-- The column-keeping broadcast reads `(r, k)` at `(r, 0)`. -/
private theorem bcast_cols_idx (r : Fin 16384) (k : Fin 4096) :
    ReadP.idx_main_call0_v4 (ix2 r k) = ix2 r (0 : Fin 1) :=
  funext fun a => Fin.ext (by match a with | ⟨0, _⟩ => rfl | ⟨1, _⟩ => rfl)

/-- The unit-axis broadcast reads `(r, 0)` at `r`. -/
private theorem bcast_unit_idx (r : Fin 16384) :
    ReadP.idx_main_call0_v3 (ix2 r (0 : Fin 1)) = ix1 r :=
  funext fun a => Fin.ext (by match a with | ⟨0, _⟩ => rfl)

/-- The column-keeping broadcast of the log-sum reads `(r, k)` at `(r, 0)`. -/
private theorem bcast_cols_idx_lse (r : Fin 16384) (k : Fin 4096) :
    ReadP.idx_main_call0_v10 (ix2 r k) = ix2 r (0 : Fin 1) :=
  funext fun a => Fin.ext (by match a with | ⟨0, _⟩ => rfl | ⟨1, _⟩ => rfl)

/-- The unit-axis broadcast of the sum reads `(r, 0)` at `r`. -/
private theorem bcast_unit_idx_sum (r : Fin 16384) :
    ReadP.idx_main_call0_v8 (ix2 r (0 : Fin 1)) = ix1 r :=
  funext fun a => Fin.ext (by match a with | ⟨0, _⟩ => rfl)

/-- The sum over the columns of row `r` reads the summand at `(r, k)`. -/
private theorem sum_cols_idx (r : Fin 16384) (k : Fin 4096) :
    ReadP.idx_main_call0_v7 (ix1 r) k = ix2 r k :=
  funext fun a => Fin.ext (by match a with | ⟨0, _⟩ => rfl | ⟨1, _⟩ => rfl)

/-! ## The row's maximum, shifted logits, and log-sum-exp -/

/-- The maximum with minus infinity of the fold of the maximum over the row, from minus infinity, is the row's maximum. -/
theorem rowmax_apply (X : (⟨S16384x4096, .f32⟩ : BufTy).Contents (Elt Ideal)) (r : Fin 16384) :
    ReadP.val_main_call0_v2 (F := Ideal) X (ix1 r) = Cert.SoftCE.rowMax (Cert.SoftCE.xrow X r) := by
  rw [ReadP.val_main_call0_v2_apply, ReadP.val_main_call0_v1_apply, ReadP.val_main_call0_cst_0_apply]
  unfold ReadP.val_main_call0_v0
  rw [Host.reduce_eq_fold_single (α := Ideal .f32) (FloatOps.maximumf (F := Ideal) (φ := .f32)) X
      (ReadP.val_main_call0_cst (F := Ideal)) reducesTo_S16384x4096_S16384_d1 reduces_cols h_S_ (ix1 r),
    ReadP.val_main_call0_cst_apply]
  simp only [Ideal.ofBits_def, Ideal.maximumf_def, Cert.SoftCE.ofBits_neg_inf]
  rw [max_eq_right bot_le]
  have hrow : (X ∘ reduces_cols.lift (ix1 r)) = Cert.SoftCE.xrow X r := funext fun k => by
    exact congrArg X (lift_row r k)
  rw [hrow]
  rfl

/-- The logit at `(r, k)` less the row's maximum. -/
theorem shifted_apply (X : (⟨S16384x4096, .f32⟩ : BufTy).Contents (Elt Ideal)) (r : Fin 16384) (k : Fin 4096) :
    ReadP.val_main_call0_v5 (F := Ideal) X (ix2 r k) = Cert.SoftCE.shifted (Cert.SoftCE.xrow X r) k := by
  rw [ReadP.val_main_call0_v5_apply, ReadP.val_main_call0_v4_apply, bcast_cols_idx, ReadP.val_main_call0_v3_apply,
    bcast_unit_idx, rowmax_apply]
  rfl

/-- The logarithm of the sum over the row of the exponentials of the shifted logits. -/
theorem lse_apply (X : (⟨S16384x4096, .f32⟩ : BufTy).Contents (Elt Ideal)) (r : Fin 16384) :
    ReadP.val_main_call0_v9 (F := Ideal) X (ix2 r (0 : Fin 1)) = Cert.SoftCE.logSumExp (Cert.SoftCE.xrow X r) := by
  rw [ReadP.val_main_call0_v9_apply, ReadP.val_main_call0_v8_apply, bcast_unit_idx_sum, ReadP.val_main_call0_v7_apply,
    ReadP.val_main_call0_cst_1_apply]
  simp only [Ideal.ofBits_def, Ideal.ofBits_zero_f32, zero_add, Ideal.hostUnary_log_def]
  unfold Cert.SoftCE.logSumExp
  refine congrArg Ideal.log (Finset.sum_congr rfl fun k _ => ?_)
  rw [sum_cols_idx, ReadP.val_main_call0_v6_apply, shifted_apply]
  rfl

theorem logp_apply (X : (⟨S16384x4096, .f32⟩ : BufTy).Contents (Elt Ideal)) (r : Fin 16384) (k : Fin 4096) :
    Cert.ReferenceIdeal.ReadP.val_main_v0 (F := Ideal) X (ix2 r k)
      = Cert.SoftCE.shifted (Cert.SoftCE.xrow X r) k - Cert.SoftCE.logSumExp (Cert.SoftCE.xrow X r) := by
  rw [ReadP.val_main_v0_apply, shifted_apply, ReadP.val_main_call0_v10_apply, bcast_cols_idx_lse, lse_apply]
  rfl

end Cert.ReferenceIdeal.RefLogp

end
-- ==== Proof.RefGather.lean ====
/-
  The reference's gather along the class axis with its range mask: under in-range labels the mask is set and the
  gather reads the log-softmax at the label's column.
-/
import proofs.«409224_j1219770712179_3_alg».proof.Proof.RefReadPatched
import proofs.«409224_j1219770712179_3_alg».proof.Proof.Spec
import Idealize.ShloMosaic.Lib.ValueIdx
import Idealize.ShloMosaic.Lib.StableHlo.Predicate
import Idealize.ShloMosaic.PureOps.Reduce

noncomputable section

namespace Cert.ReferenceIdeal.RefGather

open Cert.ReferenceIdeal Cert.ReferenceIdeal.Gen Idealize.ShloMosaic Idealize.ShloMosaic.ValueIdx

/-- An in-range label word is not negative: the signed comparison with zero fails and the wrap leaves the word. -/
private theorem wrapped_apply (P : (⟨S16384x3, .i32⟩ : BufTy).Contents (Elt Ideal))
    (hP : ∀ j, (P j).toNat < 4096) (i : S16384x3.Idx) :
    ReadP.val_main_call1_v4 (F := Ideal) P i = P i := by
  rw [ReadP.val_main_call1_v4_apply, ReadP.val_main_call1_v1_apply, ReadP.val_main_call1_v0_apply,
    ReadP.val_main_call1_c_apply]
  have h : IntOp.cmpi .slt (P i) 0#32 = 0#1 := by
    apply eq_zero_of_ne_one
    rw [StableHlo.Predicate.slt_iff_toNat (by have := hP i; omega) (by decide)]
    simp
  rw [h, select_zero]

/-- The reshape to a trailing unit axis reads the same row and label. -/
private theorem idx_v5_unit (r : Fin 16384) (j : Fin 3) :
    ReadP.idx_main_call1_v5 (ix3 r j (0 : Fin 1)) = ix2 r j := by
  funext a
  match a with
  | ⟨0, _⟩ => apply Fin.ext; show ((r.val * 3 + j.val) * 1 + 0) / 3 = r.val; have := j.isLt; omega
  | ⟨1, _⟩ => apply Fin.ext; show ((r.val * 3 + j.val) * 1 + 0) % 3 = j.val; have := j.isLt; omega

/-- The start index of row `r`, label `j` is the label word itself. -/
private theorem start_apply (P : (⟨S16384x3, .i32⟩ : BufTy).Contents (Elt Ideal))
    (hP : ∀ j, (P j).toNat < 4096) (r : Fin 16384) (j : Fin 3) :
    ReadP.val_main_call1_v5 (F := Ideal) P (ix3 r j (0 : Fin 1)) = P (ix2 r j) := by
  rw [ReadP.val_main_call1_v5_apply, idx_v5_unit, wrapped_apply P hP]

/-- The range test at row `r`, label `j`: an in-range word is at least `0` and at most `4095`. -/
private theorem inrange_apply (P : (⟨S16384x3, .i32⟩ : BufTy).Contents (Elt Ideal))
    (hP : ∀ j, (P j).toNat < 4096) (r : Fin 16384) (j : Fin 3) :
    ReadP.val_main_call1_v11 (F := Ideal) P (ix3 r j (0 : Fin 1)) = 1#1 := by
  rw [ReadP.val_main_call1_v11_apply, ReadP.val_main_call1_v7_apply, ReadP.val_main_call1_v10_apply,
    start_apply P hP, ReadP.val_main_call1_v6_apply, ReadP.val_main_call1_c_2_apply,
    ReadP.val_main_call1_v9_apply, ReadP.val_main_call1_v8_apply, ReadP.val_main_call1_c_1_apply]
  have hp := hP (ix2 r j)
  have h1 : IntOp.cmpi .sge (P (ix2 r j)) 0#32 = 1#1 := by
    rw [StableHlo.Predicate.sge_iff_toNat (by omega) (by decide)]; simp
  have h2 : IntOp.cmpi .sle (P (ix2 r j)) 4095#32 = 1#1 := by
    rw [StableHlo.Predicate.sle_iff_toNat (by omega) (by decide)]
    show (P (ix2 r j)).toNat ≤ 4095
    omega
  rw [h1, h2]; rfl

/-- A fold over a one-point range is one application of the operation. -/
private theorem fold_unit {α : Type} {n : Nat} (hn : n = 1) (op : α → α → α) [Std.Commutative op] [Std.Associative op]
    (b : α) (f : Fin n → α) :
    (Finset.univ : Finset (Fin n)).fold op b f = op (f ⟨0, by omega⟩) b := by
  subst hn
  rw [Finset.univ_unique, Finset.fold_singleton]; rfl

/-- The mask is the conjunction over the unit axis: one term, the range test, against the initial `true`. -/
private theorem mask_apply (P : (⟨S16384x3, .i32⟩ : BufTy).Contents (Elt Ideal))
    (hP : ∀ j, (P j).toNat < 4096) (r : Fin 16384) (j : Fin 3) :
    ReadP.val_main_call1_v12 (F := Ideal) P (ix2 r j) = 1#1 := by
  unfold ReadP.val_main_call1_v12
  have hred : S16384x3x1.Reduces [2] S16384x3 := by decide
  have hl : ∀ k : Fin (S16384x3x1.size 2), hred.lift (ix2 r j) k = ix3 r j (0 : Fin 1) := by
    intro k
    funext c
    apply Fin.ext
    match c with
    | ⟨0, _⟩ => rfl
    | ⟨1, _⟩ => rfl
    | ⟨2, _⟩ =>
      show k.val = 0
      have hk : k.val < 1 := k.isLt
      omega
  rw [Host.reduce_eq_fold_single IntOp.andi _ _ reducesTo_S16384x3x1_S16384x3_d2 hred h_S_ (ix2 r j)]
  rw [fold_unit (rfl : S16384x3x1.size 2 = 1), Function.comp_apply, hl, inrange_apply P hP, ReadP.val_main_call1_c_3_apply]; rfl

/-- The gather's dimension numbers: a take along the class axis, batched over the rows. -/
private abbrev takeRows := gather_S16384x4096_S16384x3x1_S16384x3_n_1_0_0_1_2_11

/-- The operand index the gather reads for row `r`, label `j`: the row itself on the batching axis; on the class axis the
    start index at `(r, j, 0)`, read signed and clamped into `[0, 4095]`. -/
private theorem operandIdx_apply {w : Nat} (idx : IVec S16384x3x1 w) (r : Fin 16384) (j : Fin 3) :
    takeRows.operandIdx (ix2 r j) idx
      = ix2 r ⟨min (idx (ix3 r j (0 : Fin 1))).toInt.toNat 4095, by omega⟩ := by
  funext a
  apply Fin.ext
  match a with
  | ⟨0, _⟩ =>
    show takeRows.start (ix2 r j) idx 0 + takeRows.batchCoord (ix2 r j) 0 + takeRows.offCoord (ix2 r j) 0 = r.val
    have hb : (0 : Fin 2) ∈ takeRows.operandBatchingDims := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    show takeRows.start (ix2 r j) idx 1 + takeRows.batchCoord (ix2 r j) 1 + takeRows.offCoord (ix2 r j) 1
      = min (idx (ix3 r j (0 : Fin 1))).toInt.toNat 4095
    have hnb : (1 : Fin 2) ∉ takeRows.operandBatchingDims := by
      intro h; exact absurd (List.mem_singleton.mp h) (by decide)
    have hc : (1 : Fin 2) ∈ takeRows.collapsedSliceDims := List.mem_singleton.mpr rfl
    have hm : (1 : Fin 2) ∈ takeRows.startIndexMap := List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : takeRows.siIdx (ix2 r j) ⟨List.idxOf (1 : Fin 2) takeRows.startIndexMap,
        List.idxOf_lt_length_iff.2 hm⟩ = ix3 r j (0 : Fin 1) := by
      funext b
      apply Fin.ext
      match b with
      | ⟨0, _⟩ => rfl
      | ⟨1, _⟩ => rfl
      | ⟨2, _⟩ => rfl
    rw [hsi]
    rfl

/-- THE GATHER at row `r`, label `j`: the log-softmax of row `r` at the column the label word names. -/
private theorem gather_apply (X : (⟨S16384x4096, .f32⟩ : BufTy).Contents (Elt Ideal))
    (P : (⟨S16384x3, .i32⟩ : BufTy).Contents (Elt Ideal)) (hP : ∀ j, (P j).toNat < 4096) (r : Fin 16384) (j : Fin 3) :
    ReadP.val_main_call1_v13 (F := Ideal) X P (ix2 r j)
      = ReadP.val_main_v0 (F := Ideal) X (ix2 r ⟨(P (ix2 r j)).toNat, hP _⟩) := by
  unfold ReadP.val_main_call1_v13 Host.gather
  rw [operandIdx_apply]
  congr 2
  apply Fin.ext
  show min (ReadP.val_main_call1_v5 (F := Ideal) P (ix3 r j (0 : Fin 1))).toInt.toNat 4095 = (P (ix2 r j)).toNat
  rw [start_apply P hP]
  have hp := hP (ix2 r j)
  rw [StableHlo.Predicate.toInt_eq_toNat_of_lt (by omega), Int.toNat_natCast]
  omega

theorem take_apply (X : (⟨S16384x4096, .f32⟩ : BufTy).Contents (Elt Ideal)) (P : (⟨S16384x3, .i32⟩ : BufTy).Contents (Elt Ideal))
    (hP : ∀ j, (P j).toNat < 4096) (r : Fin 16384) (j : Fin 3) :
    Cert.ReferenceIdeal.ReadP.val_main_v1 (F := Ideal) X P (ix2 r j)
      = Cert.ReferenceIdeal.ReadP.val_main_v0 (F := Ideal) X (ix2 r (Cert.SoftCE.col (Cert.SoftCE.plab P r j))) := by
  have hc : (⟨(P (ix2 r j)).toNat, hP _⟩ : Fin 4096) = Cert.SoftCE.col (Cert.SoftCE.plab P r j) := by
    apply Fin.ext
    show (P (ix2 r j)).toNat = (P (ix2 r j)).toNat % 4096
    rw [Nat.mod_eq_of_lt (hP _)]
  rw [ReadP.val_main_v1_apply, mask_apply P hP, select_one, gather_apply X P hP, hc]

end Cert.ReferenceIdeal.RefGather

end
-- ==== Proof.RefLoss.lean ====
/-
  The reference's minus-log-softmax gathered at a label: under in-range labels it is the row specification's loss.
-/
import proofs.«409224_j1219770712179_3_alg».proof.Proof.RefLogp
import proofs.«409224_j1219770712179_3_alg».proof.Proof.RefGather

noncomputable section

namespace Cert.ReferenceIdeal.RefLoss

open Cert.ReferenceIdeal Cert.ReferenceIdeal.Gen Idealize.ShloMosaic Idealize.ShloMosaic.ValueIdx

/-- The negated gather at row `r`, label `j`: minus the log-softmax of the row at the label's column. -/
theorem loss_apply (X : (⟨S16384x4096, .f32⟩ : BufTy).Contents (Elt Ideal)) (P : (⟨S16384x3, .i32⟩ : BufTy).Contents (Elt Ideal))
    (hP : ∀ j, (P j).toNat < 4096) (r : Fin 16384) (j : Fin 3) :
    Cert.ReferenceIdeal.ReadP.val_main_v2 (F := Ideal) X P (ix2 r j)
      = Cert.SoftCE.loss (Cert.SoftCE.xrow X r) (Cert.SoftCE.plab P r j) := by
  rw [Cert.ReferenceIdeal.ReadP.val_main_v2_apply, Cert.ReferenceIdeal.RefGather.take_apply X P hP r j,
    Cert.ReferenceIdeal.RefLogp.logp_apply X r]
  rfl

end Cert.ReferenceIdeal.RefLoss

end
-- ==== Proof.RefValue.lean ====
/-
  The reference's per-row values: under in-range labels, the gather row values of the specification.
-/
import proofs.«409224_j1219770712179_3_alg».proof.Proof.RefLoss
import Idealize.ShloMosaic.Lib.StableHlo.Predicate
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.ReferenceIdeal.ReadP Cert.SoftCE

/-! ## A select on an equality test is an if-then-else on the equality -/

private theorem select_cmpi_eq {α : Type} {w : Nat} (a b : BitVec w) (u v : α) :
    Scalar.select (IntOp.cmpi .eq a b) u v = if a = b then u else v := by
  by_cases h : a = b
  · rw [if_pos h, StableHlo.Predicate.cmpi_eq_iff.mpr h, select_one]
  · rw [if_neg h, eq_zero_of_ne_one (fun h1 => h (StableHlo.Predicate.cmpi_eq_iff.mp h1)), select_zero]

/-! ## Column `j` of a [16384, 3] array read at row `r`: the slice-then-reshape index is `(r, j)` -/

private theorem idx_loss0 (r : Fin 16384) : idx_main_v3 (idx_main_v4 (ix1 r)) = ix2 r (0 : Fin 3) := by
  funext a
  match a with
  | ⟨0, _⟩ => exact Fin.ext (Nat.div_one _)
  | ⟨1, _⟩ => exact Fin.ext rfl

private theorem idx_loss1 (r : Fin 16384) : idx_main_v5 (idx_main_v6 (ix1 r)) = ix2 r (1 : Fin 3) := by
  funext a
  match a with
  | ⟨0, _⟩ => exact Fin.ext (Nat.div_one _)
  | ⟨1, _⟩ => exact Fin.ext rfl

private theorem idx_loss2 (r : Fin 16384) : idx_main_v7 (idx_main_v8 (ix1 r)) = ix2 r (2 : Fin 3) := by
  funext a
  match a with
  | ⟨0, _⟩ => exact Fin.ext (Nat.div_one _)
  | ⟨1, _⟩ => exact Fin.ext rfl

private theorem idx_lab0 (r : Fin 16384) : idx_main_v9 (idx_main_v10 (ix1 r)) = ix2 r (0 : Fin 3) := by
  funext a
  match a with
  | ⟨0, _⟩ => exact Fin.ext (Nat.div_one _)
  | ⟨1, _⟩ => exact Fin.ext rfl

private theorem idx_lab1 (r : Fin 16384) : idx_main_v11 (idx_main_v12 (ix1 r)) = ix2 r (1 : Fin 3) := by
  funext a
  match a with
  | ⟨0, _⟩ => exact Fin.ext (Nat.div_one _)
  | ⟨1, _⟩ => exact Fin.ext rfl

private theorem idx_lab2 (r : Fin 16384) : idx_main_v13 (idx_main_v14 (ix1 r)) = ix2 r (2 : Fin 3) := by
  funext a
  match a with
  | ⟨0, _⟩ => exact Fin.ext (Nat.div_one _)
  | ⟨1, _⟩ => exact Fin.ext rfl

section Row

variable (X : (⟨S16384x4096, .f32⟩ : BufTy).Contents (Elt Ideal)) (P : (⟨S16384x3, .i32⟩ : BufTy).Contents (Elt Ideal))
  (hP : ∀ j, (P j).toNat < 4096) (r : Fin 16384)

/-! ## The three loss columns at a row -/

include hP in
private theorem loss_col0 : val_main_v4 (F := Ideal) X P (ix1 r) = loss (xrow X r) (plab P r 0) := by
  rw [val_main_v4_apply, val_main_v3_apply, idx_loss0, RefLoss.loss_apply X P hP r 0]

include hP in
private theorem loss_col1 : val_main_v6 (F := Ideal) X P (ix1 r) = loss (xrow X r) (plab P r 1) := by
  rw [val_main_v6_apply, val_main_v5_apply, idx_loss1, RefLoss.loss_apply X P hP r 1]

include hP in
private theorem loss_col2 : val_main_v8 (F := Ideal) X P (ix1 r) = loss (xrow X r) (plab P r 2) := by
  rw [val_main_v8_apply, val_main_v7_apply, idx_loss2, RefLoss.loss_apply X P hP r 2]

/-! ## The three label columns at a row -/

private theorem lab_col0 : val_main_v10 (F := Ideal) P (ix1 r) = plab P r 0 := by
  rw [val_main_v10_apply, val_main_v9_apply, idx_lab0]; rfl

private theorem lab_col1 : val_main_v12 (F := Ideal) P (ix1 r) = plab P r 1 := by
  rw [val_main_v12_apply, val_main_v11_apply, idx_lab1]; rfl

private theorem lab_col2 : val_main_v14 (F := Ideal) P (ix1 r) = plab P r 2 := by
  rw [val_main_v14_apply, val_main_v13_apply, idx_lab2]; rfl

/-! ## The three pair tests at a row -/

private theorem test01 : val_main_v15 (F := Ideal) P (ix1 r) = IntOp.cmpi .eq (plab P r 0) (plab P r 1) := by
  rw [val_main_v15_apply, lab_col0, lab_col1]

private theorem test02 : val_main_v24 (F := Ideal) P (ix1 r) = IntOp.cmpi .eq (plab P r 0) (plab P r 2) := by
  rw [val_main_v24_apply, lab_col0, lab_col2]

private theorem test12 : val_main_v33 (F := Ideal) P (ix1 r) = IntOp.cmpi .eq (plab P r 1) (plab P r 2) := by
  rw [val_main_v33_apply, lab_col1, lab_col2]

/-! ## The three weighted forms at a row -/

include hP in
private theorem weighted01 : val_main_v23 (F := Ideal) X P (ix1 r)
    = pairLoss (loss (xrow X r) (plab P r 0)) (loss (xrow X r) (plab P r 1)) (loss (xrow X r) (plab P r 2)) := by
  rw [val_main_v23_apply, val_main_v20_apply, val_main_v22_apply, val_main_v18_apply, val_main_v16_apply,
    val_main_v17_apply, val_main_cst_apply, val_main_v19_apply, val_main_cst_0_apply, val_main_v21_apply,
    val_main_cst_1_apply, loss_col0 X P hP r, loss_col1 X P hP r, loss_col2 X P hP r]
  rfl

include hP in
private theorem weighted02 : val_main_v32 (F := Ideal) X P (ix1 r)
    = pairLoss (loss (xrow X r) (plab P r 0)) (loss (xrow X r) (plab P r 2)) (loss (xrow X r) (plab P r 1)) := by
  rw [val_main_v32_apply, val_main_v29_apply, val_main_v31_apply, val_main_v27_apply, val_main_v25_apply,
    val_main_v26_apply, val_main_cst_2_apply, val_main_v28_apply, val_main_cst_3_apply, val_main_v30_apply,
    val_main_cst_4_apply, loss_col0 X P hP r, loss_col1 X P hP r, loss_col2 X P hP r]
  rfl

include hP in
private theorem weighted12 : val_main_v41 (F := Ideal) X P (ix1 r)
    = pairLoss (loss (xrow X r) (plab P r 1)) (loss (xrow X r) (plab P r 2)) (loss (xrow X r) (plab P r 0)) := by
  rw [val_main_v41_apply, val_main_v38_apply, val_main_v40_apply, val_main_v36_apply, val_main_v34_apply,
    val_main_v35_apply, val_main_cst_5_apply, val_main_v37_apply, val_main_cst_6_apply, val_main_v39_apply,
    val_main_cst_7_apply, loss_col0 X P hP r, loss_col1 X P hP r, loss_col2 X P hP r]
  rfl

/-! ## The innermost else-value: a broadcast zero -/

private theorem else_zero (i : S16384.Idx) : val_main_call2_v1 (F := Ideal) i = 0 := by
  rw [val_main_call2_v1_apply, val_main_call2_v0_apply, val_main_cst_8_apply, Ideal.ofBits_def, Ideal.ofBits_zero_f32]

/-! ## The nested selects at a row -/

include hP in
private theorem row_eq : val_main_v44 (F := Ideal) X P (ix1 r)
    = rowR (xrow X r) (plab P r 0) (plab P r 1) (plab P r 2) := by
  rw [val_main_v44_apply, val_main_v43_apply, val_main_v42_apply, test01, test02, test12,
    weighted01 X P hP r, weighted02 X P hP r, weighted12 X P hP r, else_zero,
    select_cmpi_eq, select_cmpi_eq, select_cmpi_eq]
  rfl

end Row

theorem rows_eq (X : (⟨S16384x4096, .f32⟩ : BufTy).Contents (Elt Ideal)) (P : (⟨S16384x3, .i32⟩ : BufTy).Contents (Elt Ideal))
    (hP : ∀ j, (P j).toNat < 4096) :
    Cert.ReferenceIdeal.ReadP.val_main_v44 (F := Ideal) X P = Cert.SoftCE.GR X P := by
  funext i
  obtain ⟨r, rfl⟩ : ∃ r : Fin 16384, i = ix1 r := ⟨i 0, eq_ix1 i⟩
  exact row_eq X P hP r

end Cert.ReferenceIdeal.RefValue

end
-- ==== Proof.RowAlgebra.lean ====
/-
  On a finite row with in-range labels the one-hot spelling of the row's value and the gather spelling agree.

  With every logit real the row's maximum is real, so the shifted logits `s c` are real, the sum of their
  exponentials is a positive real and its logarithm `L` is real: both spellings are then real arithmetic.
  The one-hot sum keeps one term per label (a label word below 4096 names exactly one column), so the
  one-hot value is `(k0 + k1 + k2) * L - (k0 * s (col p0) + k1 * s (col p1) + k2 * s (col p2))`; the
  gather value is `f32(0.7) * (la + lb) / 2 + f32(0.3) * lc` over the losses `L - s (col p)`; and
  `f32(0.35)` is exactly `f32(0.7) / 2`.
-/
import proofs.«409224_j1219770712179_3_alg».proof.Proof.Spec

noncomputable section

open scoped BigOperators

namespace Cert.SoftCE

open Idealize.ShloMosaic

/-! ## A finite sum of reals, read in the extended reals -/

private theorem coe_sum {ι : Type} (t : Finset ι) (f : ι → ℝ) :
    ∑ i ∈ t, ((f i : ℝ) : EReal) = ((∑ i ∈ t, f i : ℝ) : EReal) := by
  classical
  refine Finset.induction_on t (by simp) ?_
  intro i t hi ih
  rw [Finset.sum_insert hi, Finset.sum_insert hi, ih, EReal.coe_add]

/-! ## The constants as reals -/

/-- `2`. -/
private theorem cTwo_eq : cTwo = ((2 : ℝ) : EReal) := by
  simp [cTwo, Ideal.ofBits, Ideal.ieee, -EReal.coe_mul]; norm_num

/-- `f32(0.7) = 11744051 / 2^24`. -/
private theorem cA_eq : cA = ((11744051 / 16777216 : ℝ) : EReal) := by
  simp [cA, Ideal.ofBits, Ideal.ieee, -EReal.coe_mul]; norm_num

/-- `f32(0.35)` has the significand of `f32(0.7)` one binade lower: it is exactly its half. -/
private theorem cHalfA_eq : cHalfA = ((11744051 / 16777216 / 2 : ℝ) : EReal) := by
  simp [cHalfA, Ideal.ofBits, Ideal.ieee, -EReal.coe_mul]; norm_num

/-- `f32(0.3) = 5033165 / 2^24`. -/
private theorem cOneMinusA_eq : cOneMinusA = ((5033165 / 16777216 : ℝ) : EReal) := by
  simp [cOneMinusA, Ideal.ofBits, Ideal.ieee, -EReal.coe_mul]; norm_num

/-! ## On a real row the maximum, the shifted logits and the log-sum-exp are real -/

private theorem rowMax_real (x : Fin 4096 → EReal) (hx : ∀ c, ∃ a : ℝ, x c = (a : EReal)) :
    ∃ M : ℝ, rowMax x = (M : EReal) := by
  have hlt : rowMax x < ⊤ := by
    rw [rowMax, Finset.fold_max_lt]
    refine ⟨bot_lt_top, fun c _ => ?_⟩
    obtain ⟨a, ha⟩ := hx c
    rw [ha]; exact EReal.coe_lt_top a
  have hgt : ⊥ < rowMax x := by
    rw [rowMax, Finset.lt_fold_max]
    obtain ⟨a, ha⟩ := hx ⟨0, by decide⟩
    exact Or.inr ⟨⟨0, by decide⟩, Finset.mem_univ _, by rw [ha]; exact EReal.bot_lt_coe a⟩
  exact ⟨(rowMax x).toReal, (EReal.coe_toReal hlt.ne hgt.ne').symm⟩

private theorem shifted_real (x : Fin 4096 → EReal) (hx : ∀ c, ∃ a : ℝ, x c = (a : EReal)) :
    ∃ s : Fin 4096 → ℝ, ∀ c, shifted x c = (s c : EReal) := by
  obtain ⟨M, hM⟩ := rowMax_real x hx
  choose a ha using hx
  exact ⟨fun c => a c - M, fun c => by rw [shifted, ha, hM, EReal.coe_sub]⟩

private theorem logSumExp_real (x : Fin 4096 → EReal) (s : Fin 4096 → ℝ)
    (hs : ∀ c, shifted x c = (s c : EReal)) : ∃ L : ℝ, logSumExp x = (L : EReal) := by
  have hpos : 0 < ∑ c : Fin 4096, Real.exp (s c) :=
    Finset.sum_pos (fun c _ => Real.exp_pos _) ⟨⟨0, by decide⟩, Finset.mem_univ _⟩
  refine ⟨Real.log (∑ c : Fin 4096, Real.exp (s c)), ?_⟩
  rw [logSumExp]
  simp only [hs, Ideal.exp_coe]
  rw [coe_sum, Ideal.log_coe, if_neg (not_le.mpr hpos)]

/-! ## The one-hot sum keeps one term per label -/

/-- A label word below 4096 is the word of exactly one column, its own. -/
private theorem ofNat_eq_iff (p : BitVec 32) (hp : p.toNat < 4096) (c : Fin 4096) :
    BitVec.ofNat 32 c.val = p ↔ c = col p := by
  have hc := c.isLt
  constructor
  · intro h
    have h' : (BitVec.ofNat 32 c.val).toNat = p.toNat := by rw [h]
    rw [BitVec.toNat_ofNat] at h'
    apply Fin.ext
    show c.val = p.toNat % 4096
    omega
  · intro h
    apply BitVec.eq_of_toNat_eq
    rw [BitVec.toNat_ofNat, h]
    show (p.toNat % 4096) % 2 ^ 32 = p.toNat
    omega

private theorem sum_hot_real (p : BitVec 32) (hp : p.toNat < 4096) (k : ℝ) (s : Fin 4096 → ℝ) :
    ∑ c : Fin 4096, (if BitVec.ofNat 32 c.val = p then k else 0) * s c = k * s (col p) := by
  simp only [ofNat_eq_iff p hp, ite_mul, zero_mul]
  simp [Finset.sum_ite_eq']

private theorem hot_coe (p : BitVec 32) (k : ℝ) (c : Fin 4096) :
    hot p (k : EReal) c = ((if BitVec.ofNat 32 c.val = p then k else 0 : ℝ) : EReal) := by
  rw [hot]; split_ifs <;> simp

private theorem sum_hot (x : Fin 4096 → EReal) (p0 p1 p2 : BitVec 32) (s : Fin 4096 → ℝ)
    (hs : ∀ c, shifted x c = (s c : EReal)) (k0 k1 k2 : ℝ)
    (h0 : p0.toNat < 4096) (h1 : p1.toNat < 4096) (h2 : p2.toNat < 4096) :
    ∑ c : Fin 4096, (hot p0 (k0 : EReal) c + hot p1 (k1 : EReal) c + hot p2 (k2 : EReal) c) * shifted x c
      = ((k0 * s (col p0) + k1 * s (col p1) + k2 * s (col p2) : ℝ) : EReal) := by
  simp only [hot_coe, hs, ← EReal.coe_add, ← EReal.coe_mul]
  rw [coe_sum]
  congr 1
  simp only [add_mul, Finset.sum_add_distrib, sum_hot_real p0 h0, sum_hot_real p1 h1, sum_hot_real p2 h2]

/-! ## The two spellings agree -/

theorem rowK_eq_rowR (x : Fin 4096 → EReal) (p0 p1 p2 : BitVec 32)
    (hx : ∀ c, ∃ a : ℝ, x c = (a : EReal))
    (h0 : p0.toNat < 4096) (h1 : p1.toNat < 4096) (h2 : p2.toNat < 4096) :
    rowK x p0 p1 p2 = rowR x p0 p1 p2 := by
  obtain ⟨s, hs⟩ := shifted_real x hx
  obtain ⟨L, hL⟩ := logSumExp_real x s hs
  -- the one-hot value at real weights
  have hK : ∀ k0 k1 k2 : ℝ,
      ((k0 : EReal) + (k1 : EReal) + (k2 : EReal)) * logSumExp x
        - ∑ c : Fin 4096, (hot p0 (k0 : EReal) c + hot p1 (k1 : EReal) c + hot p2 (k2 : EReal) c) * shifted x c
      = (((k0 + k1 + k2) * L - (k0 * s (col p0) + k1 * s (col p1) + k2 * s (col p2)) : ℝ) : EReal) := by
    intro k0 k1 k2
    rw [sum_hot x p0 p1 p2 s hs k0 k1 k2 h0 h1 h2, hL]
    norm_cast
  -- a label's loss
  have hloss : ∀ p, loss x p = ((-(s (col p) - L) : ℝ) : EReal) := by
    intro p
    rw [loss, hs, hL, ← EReal.coe_sub, ← EReal.coe_neg]
  -- the weighing of a coinciding pair
  have hpair : ∀ la lb lc : ℝ, pairLoss (la : EReal) (lb : EReal) (lc : EReal)
      = ((11744051 / 16777216 * (la + lb) * (1 / 2) + 5033165 / 16777216 * lc : ℝ) : EReal) := by
    intro la lb lc
    rw [pairLoss, cTwo_eq, Ideal.div_coe (by norm_num : (2 : ℝ) ≠ 0), cA_eq, cOneMinusA_eq]
    norm_cast
  rw [rowK, rowR]
  by_cases e01 : p0 = p1
  · simp only [coef0, coef1, coef2, if_pos e01, cHalfA_eq, cOneMinusA_eq]
    rw [hK, hloss, hloss, hloss, hpair]
    congr 1; ring
  · by_cases e02 : p0 = p2
    · simp only [coef0, coef1, coef2, if_neg e01, if_pos e02, cHalfA_eq, cOneMinusA_eq]
      rw [hK, hloss, hloss, hloss, hpair]
      congr 1; ring
    · by_cases e12 : p1 = p2
      · simp only [coef0, coef1, coef2, if_neg e01, if_neg e02, if_pos e12, cHalfA_eq, cOneMinusA_eq]
        rw [hK, hloss, hloss, hloss, hpair]
        congr 1; ring
      · simp only [coef0, coef1, coef2, if_neg e01, if_neg e02, if_neg e12]
        have h := hK 0 0 0
        rw [EReal.coe_zero] at h
        rw [h]
        simp

end Cert.SoftCE

end
-- ==== Proof.PreDecode.lean ====
/-
  What the precondition says of the inputs. It is the conjunction of two "all" tests, each an and-reduction to one
  word that is 1: every logit's absolute value is below +∞, and every label word is at least 0 and below 4096 as a
  signed number. An extended real whose absolute value is below +∞ is neither infinity, so it is a real number; a
  32-bit word that is non-negative and below 4096 signed is below 4096 unsigned.
-/
import proofs.«409224_j1219770712179_3_alg».proof.Pre_finite_inputs
import Idealize.ShloMosaic.Lib.ReduceAll
import Idealize.ShloMosaic.Lib.ValueIdx
import Idealize.ShloMosaic.PureOps.Ideal.Laws

noncomputable section

namespace Cert.PreDecode

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- The pattern of plus infinity is the top of the extended reals. -/
theorem pos_inf : Ideal.ofBits .f32 0x7F800000#32 = (⊤ : EReal) := by simp [Ideal.ofBits, Ideal.ieee]

/-- An extended real whose absolute value is below the top is a real number. -/
theorem real_of_abs_lt_top (x : EReal) (h : max x (-x) < ⊤) : ∃ a : ℝ, x = (a : EReal) := by
  induction x using EReal.rec with
  | bot => simp at h
  | coe a => exact ⟨a, rfl⟩
  | top => simp at h

/-- A truth value's bit is 1 exactly when it is true. -/
theorem ofBool_eq_one (b : Bool) : BitVec.ofBool b = 1#1 ↔ b = true := by cases b <;> decide

/-- A word that is at least 0 and below 4096 as a signed number is below 4096 as an unsigned one. -/
theorem toNat_lt_of_signed (w : BitVec 32) (h0 : IntOp.cmpi .sge w 0#32 = 1#1) (h1 : IntOp.cmpi .slt w 4096#32 = 1#1) :
    w.toNat < 4096 := by
  have a0 : (0#32 : BitVec 32).sle w = true := (ofBool_eq_one _).1 h0
  have a1 : w.slt 4096#32 = true := (ofBool_eq_one _).1 h1
  simp only [BitVec.sle, BitVec.slt, decide_eq_true_eq] at a0 a1
  have t0 : (0#32 : BitVec 32).toInt = 0 := by decide
  have t1 : (4096#32 : BitVec 32).toInt = 4096 := by decide
  rw [t0] at a0; rw [t1] at a1
  rw [BitVec.toInt_eq_toNat_cond] at a0 a1
  have hw := w.isLt
  split_ifs at a0 a1 <;> omega

/-- The precondition decoded: every logit is a real number and every label word is below 4096. -/
theorem decode (X : FVec Ideal S16384x4096 .f32) (T : IVec S16384 32) (P : IVec S16384x3 32)
    (h : Cert.Pre_finite_inputs.fn (F := Ideal) X T P = fun _ => 1#1) :
    (∀ i, ∃ a : ℝ, X i = (a : EReal)) ∧ (∀ j, (P j).toNat < 4096) := by
  have e := congrFun h ix0
  dsimp only [Cert.Pre_finite_inputs.fn] at e
  obtain ⟨e1, e2⟩ := IntOp.andi_eq_one.1 (show IntOp.andi _ _ = 1#1 from e)
  refine ⟨fun i => ?_, fun j => ?_⟩
  · have hi : FloatOps.cmpf (F := Ideal) .olt (FloatOps.hostAbsf (X i)) (FloatOps.ofBits .f32 0x7F800000#32) = 1#1 :=
      Host.reduce_andi_all _ _ _ _ _ e1 i
    rw [Ideal.cmpf_def, Ideal.hostAbsf_def, Ideal.absf_def, Ideal.ofBits_def, pos_inf] at hi
    have hlt : max (X i) (-(X i)) < ⊤ := by
      have := (ofBool_eq_one _).1 hi
      simpa using this
    exact real_of_abs_lt_top _ hlt
  · have hj : IntOp.andi (IntOp.cmpi .sge (P j) 0#32) (IntOp.cmpi .slt (P j) 4096#32) = 1#1 :=
      Host.reduce_andi_all _ _ _ _ _ e2 j
    obtain ⟨h0, h1⟩ := IntOp.andi_eq_one.1 hj
    exact toNat_lt_of_signed _ h0 h1

end Cert.PreDecode

end
-- ==== Proof.lean ====
/-
  The idealized kernel and the idealized reference compute the same mean of per-row losses.

  Row by row: with `s c = x c - max x` and `L = log (∑ c, exp (s c))`, the reference gathers the three losses
  `L - s p_j` at the row's labels and weighs them by which pair of labels coincides (the two equal labels
  `f32(0.7)/2` each, the third `f32(0.3)`, nothing when no pair coincides); the kernel multiplies the sum of the same
  weights by `L` and subtracts the sum over all columns of the weights landing on each column times `s`. On finite
  logits and labels in `[0, 4096)` these are one real number (Proof/RowAlgebra.lean): `f32(0.35)` is exactly half of
  `f32(0.7)`, and a one-hot sum over the columns picks the label's column. Both programs then take the same mean.
  The precondition gives the finiteness and the label range (Proof/PreDecode.lean); outside that range the reference's
  gather fills with a NaN or wraps a negative label, which the kernel's one-hot comparison does not.
  The kernel's run with its result named is Proof/KernelValue.lean (over the generated frame), the reference's
  Proof/RefStages.lean (its operations read stage by stage) and Proof/RefValue.lean (the stages at an index).
-/
import proofs.«409224_j1219770712179_3_alg».proof.Defs
import proofs.«409224_j1219770712179_3_alg».proof.Proof.Gen.Kernel
import proofs.«409224_j1219770712179_3_alg».proof.Proof.Gen.Kernel.Frame
import proofs.«409224_j1219770712179_3_alg».proof.Proof.Gen.KernelIdeal
import proofs.«409224_j1219770712179_3_alg».proof.Proof.Gen.KernelIdeal.Frame
import proofs.«409224_j1219770712179_3_alg».proof.Proof.Gen.ReferenceIdeal
import proofs.«409224_j1219770712179_3_alg».proof.Proof.Gen.Pre_finite_inputs
import proofs.«409224_j1219770712179_3_alg».proof.Proof.KernelValue
import proofs.«409224_j1219770712179_3_alg».proof.Proof.RefStages
import proofs.«409224_j1219770712179_3_alg».proof.Proof.RefValue
import proofs.«409224_j1219770712179_3_alg».proof.Proof.RowAlgebra
import proofs.«409224_j1219770712179_3_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefStages.run (F := Ideal) m ρ)

/-- On finite logits and in-range labels the two spellings of the per-row values are one array. -/
theorem rows_agree (X : Cert.SoftCE.SX.Idx → EReal) (P : Cert.SoftCE.SP.Idx → BitVec 32)
    (hX : ∀ i, ∃ a : ℝ, X i = (a : EReal)) (hP : ∀ j, (P j).toNat < 4096) :
    Cert.SoftCE.GR X P = Cert.SoftCE.GK X P :=
  funext fun i => (Cert.SoftCE.rowK_eq_rowR _ _ _ _ (fun c => hX _) (hP _) (hP _) (hP _)).symm

/-- Both programs end at the mean of the one-hot row values of the argument arrays. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefStages.run (F := Ideal) m' ρ')
  obtain ⟨hX, hP⟩ := Cert.PreDecode.decode _ _ _ (hpre c)
  rw [(hagree c).1, (hagree c).2.2]
  unfold Cert.ReferenceIdeal.ReadP.val_main_v46 Cert.ReferenceIdeal.ReadP.val_main_v45
  rw [Cert.ReferenceIdeal.RefValue.rows_eq _ _ hP, rows_agree _ _ hX hP]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
